-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S512x512 : Shape := ⟨2, ![512, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S32x2048x512 .f32) (main_arg1 : FVec F S512x512 .f32) (main_arg2 : FVec F S512x512 .f32) (main_arg3 : FVec F S512x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S32x2048x512 : Shape := ⟨3, ![32, 2048, 512]⟩
abbrev S512x512 : Shape := ⟨2, ![512, 512]⟩
abbrev S1x2048x512 : Shape := ⟨3, ![1, 2048, 512]⟩
abbrev S1x512x512 : Shape := ⟨3, ![1, 512, 512]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S32x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .bf16⟩
  | .hbm, ⟨5, _⟩ => ⟨S32x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S1x512x512, .f32⟩
  | .local _ .vmem, ⟨6, _⟩ => ⟨S1x512x512, .f32⟩
  | .local _ .vmem, ⟨7, _⟩ => ⟨S2048x512, .f32⟩
  | .local _ .vmem, ⟨8, _⟩ => ⟨S2048x512, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512x512_S512x512 : S512x512.ShapeCasts S512x512
  packedbf16_S2048x512_S2048x512_0_0 : (Rect.unit (s := S2048x512) ![0, 0] S2048x512.size inb_S2048x512_S2048x512_0_0).PackedRows (EltTy.packing .bf16)
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  reduces_S512x2048_S512 : S512x2048.Reduces [1] S512
  broadcasts_S512x1_S512x2048 : S512x1.Broadcasts S512x2048
  inb_S1x512x512_S1x512x512_0_0_0 : ∀ a, (![0, 0, 0] : Fin 3 → Nat) a + S1x512x512.size a ≤ S1x512x512.size a
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x2048x512.size a
  hwx0_4 : ∀ i : grid0.Coords, EltTy.bits .f32 = 32 ∨ (Rect.block (s := S32x2048x512) S1x512x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S512x512 : Shape := ⟨2, ![512, 512]⟩
abbrev S_ : Shape := ⟨0, ![]⟩
abbrev S32x2048 : Shape := ⟨2, ![32, 2048]⟩
abbrev S32x2048x1 : Shape := ⟨3, ![32, 2048, 1]⟩
abbrev S32x2048x2048 : Shape := ⟨3, ![32, 2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S32x2048x512, .f32⟩
  | .hbm, ⟨5, _⟩ => ⟨S32x2048x512, .f32⟩
  | .hbm, ⟨6, _⟩ => ⟨S32x2048x512, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x512, .f32⟩
  | .hbm, ⟨14, _⟩ => ⟨S32x2048x512, .f32⟩
  | .hbm, ⟨15, _⟩ => ⟨S32x2048x512, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x1, .f32⟩
  | .hbm, ⟨20, _⟩ => ⟨S32x2048x512, .f32⟩
  | .hbm, ⟨21, _⟩ => ⟨S32x2048x512, .f32⟩
  | .hbm, ⟨22, _⟩ => ⟨S32x2048x512, .f32⟩
  | .hbm, ⟨23, _⟩ => ⟨S_, .f32⟩
  | .hbm, ⟨24, _⟩ => ⟨S32x2048, .f32⟩
  | .hbm, ⟨25, _⟩ => ⟨S_, .f32⟩
  | .hbm, ⟨26, _⟩ => ⟨S32x2048, .f32⟩
  | .hbm, ⟨27, _⟩ => ⟨S32x2048, .f32⟩
  | .hbm, ⟨28, _⟩ => ⟨S32x2048x1, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S_, .f32⟩
  | .hbm, ⟨33, _⟩ => ⟨S32x2048, .f32⟩
  | .hbm, ⟨34, _⟩ => ⟨S32x2048x1, .f32⟩
  | .hbm, ⟨35, _⟩ => ⟨S32x2048x1, .f32⟩
  | .hbm, ⟨36, _⟩ => ⟨S32x2048x512, .f32⟩
  | .hbm, ⟨37, _⟩ => ⟨S32x2048x512, .f32⟩
  | .hbm, ⟨38, _⟩ => ⟨S32x2048x512, .f32⟩
  | .hbm, ⟨39, _⟩ => ⟨S_, .f32⟩
  | .hbm, ⟨40, _⟩ => ⟨S32x2048, .f32⟩
  | .hbm, ⟨41, _⟩ => ⟨S32x2048x2048, .f32⟩
  | .hbm, ⟨42, _⟩ => ⟨S32x2048x1, .f32⟩
  | .hbm, ⟨43, _⟩ => ⟨S32x2048x2048, .f32⟩
  | .hbm, ⟨44, _⟩ => ⟨S32x2048x2048, .f32⟩
  | .hbm, ⟨45, _⟩ => ⟨S32x2048x2048, .f32⟩
  | .hbm, ⟨46, _⟩ => ⟨S_, .f32⟩
  | .hbm, ⟨47, _⟩ => ⟨S32x2048, .f32⟩
  | .hbm, ⟨48, _⟩ => ⟨S_, .f32⟩
  | .hbm, ⟨49, _⟩ => ⟨S32x2048, .f32⟩
  | .hbm, ⟨50, _⟩ => ⟨S32x2048, .f32⟩
  | .hbm, ⟨51, _⟩ => ⟨S32x2048x1, .f32⟩
  | .hbm, ⟨52, _⟩ => ⟨S32x2048x2048, .f32⟩
  | .hbm, ⟨53, _⟩ => ⟨S32x2048x2048, .f32⟩
  | .hbm, ⟨54, _⟩ => ⟨S32x2048x2048, .f32⟩
  | .hbm, ⟨55, _⟩ => ⟨S_, .f32⟩
  | .hbm, ⟨56, _⟩ => ⟨S32x2048, .f32⟩
  | .hbm, ⟨57, _⟩ => ⟨S32x2048x1, .f32⟩
  | .hbm, ⟨58, _⟩ => ⟨S32x2048x2048, .f32⟩
  | .hbm, ⟨59, _⟩ => ⟨S32x2048x2048, .f32⟩
  | .hbm, ⟨60, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_0 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩

abbrev nD : Nat := 1
abbrev τ : Topo := Topo.v7x

variable {F : FTy → Type} [FloatOps F]

class Facts₀ : Prop where
  reducesTo_S32x2048x512_S32x2048_d2 : S32x2048x512.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  bcast_S32x2048x1_S32x2048x2048_0_1_2 : S32x2048x1.BroadcastsInDim S32x2048x2048 (![0, 1, 2] : Fin 3 → Fin S32x2048x2048.rank)
  reducesTo_S32x2048x2048_S32x2048_d2 : S32x2048x2048.ReducesTo [2] S32x2048
  dot_S32x2048x512_S512x512_S32x2048x512_2_0_01_1_n_n_wf : DotDims.WF S32x2048x512 S512x512 S32x2048x512 [2] [0] [0, 1] [1] [] []
  dot_S32x2048x512_S32x2048x512_S32x2048x2048_2_2_1_1_0_0_wf : DotDims.WF S32x2048x512 S32x2048x512 S32x2048x2048 [2] [2] [1] [1] [0] [0]
  dot_S32x2048x2048_S32x2048x512_S32x2048x512_2_1_1_2_0_0_wf : DotDims.WF S32x2048x2048 S32x2048x512 S32x2048x512 [2] [1] [1] [2] [0] [0]

variable [Facts₀]

def dot_S32x2048x512_S512x512_S32x2048x512_2_0_01_1_n_n : DotDims S32x2048x512 S512x512 S32x2048x512 where
  lhsContracting := [2]
  rhsContracting := [0]
  lhsNonContracting := [0, 1]
  rhsNonContracting := [1]
  lhsBatch := []
  rhsBatch := []
  wf := dot_S32x2048x512_S512x512_S32x2048x512_2_0_01_1_n_n_wf
def dot_S32x2048x512_S32x2048x512_S32x2048x2048_2_2_1_1_0_0 : DotDims S32x2048x512 S32x2048x512 S32x2048x2048 where
  lhsContracting := [2]
  rhsContracting := [2]
  lhsNonContracting := [1]
  rhsNonContracting := [1]
  lhsBatch := [0]
  rhsBatch := [0]
  wf := dot_S32x2048x512_S32x2048x512_S32x2048x2048_2_2_1_1_0_0_wf
def dot_S32x2048x2048_S32x2048x512_S32x2048x512_2_1_1_2_0_0 : DotDims S32x2048x2048 S32x2048x512 S32x2048x512 where
  lhsContracting := [2]
  rhsContracting := [1]
  lhsNonContracting := [1]
  rhsNonContracting := [2]
  lhsBatch := [0]
  rhsBatch := [0]
  wf := dot_S32x2048x2048_S32x2048x512_S32x2048x512_2_1_1_2_0_0_wf

class Facts : Prop extends Facts₀ where

variable [Facts]
-- ==== Proof.RefOps.lean ====
import proofs.«419489_j33964601377282_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 57 operations, in order, a called function's operations in its call's place. -/
abbrev ops : List (HloOp τ sig (Elt F)) :=
  [ binary main_arg0 main_arg1 main_v0 ((fun l r => Host.dotGeneral dot_S32x2048x512_S512x512_S32x2048x512_2_0_01_1_n_n none l r) : (⟨S32x2048x512, .f32⟩ : BufTy).Contents (Elt F) → (⟨S512x512, .f32⟩ : BufTy).Contents (Elt F) → (⟨S32x2048x512, .f32⟩ : BufTy).Contents (Elt F)),
    binary main_arg0 main_arg2 main_v1 ((fun l r => Host.dotGeneral dot_S32x2048x512_S512x512_S32x2048x512_2_0_01_1_n_n none l r) : (⟨S32x2048x512, .f32⟩ : BufTy).Contents (Elt F) → (⟨S512x512, .f32⟩ : BufTy).Contents (Elt F) → (⟨S32x2048x512, .f32⟩ : BufTy).Contents (Elt F)),
    binary main_arg0 main_arg3 main_v2 ((fun l r => Host.dotGeneral dot_S32x2048x512_S512x512_S32x2048x512_2_0_01_1_n_n none l r) : (⟨S32x2048x512, .f32⟩ : BufTy).Contents (Elt F) → (⟨S512x512, .f32⟩ : BufTy).Contents (Elt F) → (⟨S32x2048x512, .f32⟩ : BufTy).Contents (Elt F)),
    nullary main_call0_cst (constant S_ .f32 0xFF800000#32 : (⟨S_, .f32⟩ : BufTy).Contents (Elt F)),
    binary main_v0 main_call0_cst main_call0_v0 ((fun x v => Host.reduce FloatOps.maximumf x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    nullary main_call0_cst_0 (constant S_ .f32 0xFF800000#32 : (⟨S_, .f32⟩ : BufTy).Contents (Elt F)),
    unary main_call0_cst_0 main_call0_v1 ((broadcastInDim S32x2048 ![] bcast_S_S32x2048) : (⟨S_, .f32⟩ : BufTy).Contents (Elt F) → (⟨S32x2048, .f32⟩ : BufTy).Contents (Elt F)),
    binary main_call0_v1 main_call0_v0 main_call0_v2 (maximumf : (⟨S32x2048, .f32⟩ : BufTy).Contents (Elt F) → (⟨S32x2048, .f32⟩ : BufTy).Contents (Elt F) → (⟨S32x2048, .f32⟩ : BufTy).Contents (Elt F)),
    unary main_call0_v2 main_call0_v3 ((broadcastInDim S32x2048x1 ![0, 1] bcast_S32x2048_S32x2048x1_0_1) : (⟨S32x2048, .f32⟩ : BufTy).Contents (Elt F) → (⟨S32x2048x1, .f32⟩ : BufTy).Contents (Elt F)),
    unary main_call0_v3 main_call0_v4 ((broadcastInDim S32x2048x512 ![0, 1, 2] bcast_S32x2048x1_S32x2048x512_0_1_2) : (⟨S32x2048x1, .f32⟩ : BufTy).Contents (Elt F) → (⟨S32x2048x512, .f32⟩ : BufTy).Contents (Elt F)),
    binary main_v0 main_call0_v4 main_call0_v5 (subf : (⟨S32x2048x512, .f32⟩ : BufTy).Contents (Elt F) → (⟨S32x2048x512, .f32⟩ : BufTy).Contents (Elt F) → (⟨S32x2048x512, .f32⟩ : BufTy).Contents (Elt F)),
    unary main_call0_v5 main_call0_v6 (Host.exp : (⟨S32x2048x512, .f32⟩ : BufTy).Contents (Elt F) → (⟨S32x2048x512, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    unary main_call0_v7 main_call0_v8 ((broadcastInDim S32x2048x1 ![0, 1] bcast_S32x2048_S32x2048x1_0_1) : (⟨S32x2048, .f32⟩ : BufTy).Contents (Elt F) → (⟨S32x2048x1, .f32⟩ : BufTy).Contents (Elt F)),
    unary main_call0_v8 main_call0_v9 (Host.log : (⟨S32x2048x1, .f32⟩ : BufTy).Contents (Elt F) → (⟨S32x2048x1, .f32⟩ : BufTy).Contents (Elt F)),
    unary main_call0_v9 main_call0_v10 ((broadcastInDim S32x2048x512 ![0, 1, 2] bcast_S32x2048x1_S32x2048x512_0_1_2) : (⟨S32x2048x1, .f32⟩ : BufTy).Contents (Elt F) → (⟨S32x2048x512, .f32⟩ : BufTy).Contents (Elt F)),
    binary main_call0_v5 main_call0_v10 main_v3 (subf : (⟨S32x2048x512, .f32⟩ : BufTy).Contents (Elt F) → (⟨S32x2048x512, .f32⟩ : BufTy).Contents (Elt F) → (⟨S32x2048x512, .f32⟩ : BufTy).Contents (Elt F)),
    unary main_v3 main_v4 (Host.exp : (⟨S32x2048x512, .f32⟩ : BufTy).Contents (Elt F) → (⟨S32x2048x512, .f32⟩ : BufTy).Contents (Elt F)),
    nullary main_call1_cst (constant S_ .f32 0xFF800000#32 : (⟨S_, .f32⟩ : BufTy).Contents (Elt F)),
    binary main_v1 main_call1_cst main_call1_v0 ((fun x v => Host.reduce FloatOps.maximumf x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    nullary main_call1_cst_0 (constant S_ .f32 0xFF800000#32 : (⟨S_, .f32⟩ : BufTy).Contents (Elt F)),
    unary main_call1_cst_0 main_call1_v1 ((broadcastInDim S32x2048 ![] bcast_S_S32x2048) : (⟨S_, .f32⟩ : BufTy).Contents (Elt F) → (⟨S32x2048, .f32⟩ : BufTy).Contents (Elt F)),
    binary main_call1_v1 main_call1_v0 main_call1_v2 (maximumf : (⟨S32x2048, .f32⟩ : BufTy).Contents (Elt F) → (⟨S32x2048, .f32⟩ : BufTy).Contents (Elt F) → (⟨S32x2048, .f32⟩ : BufTy).Contents (Elt F)),
    unary main_call1_v2 main_call1_v3 ((broadcastInDim S32x2048x1 ![0, 1] bcast_S32x2048_S32x2048x1_0_1) : (⟨S32x2048, .f32⟩ : BufTy).Contents (Elt F) → (⟨S32x2048x1, .f32⟩ : BufTy).Contents (Elt F)),
    unary main_call1_v3 main_call1_v4 ((broadcastInDim S32x2048x512 ![0, 1, 2] bcast_S32x2048x1_S32x2048x512_0_1_2) : (⟨S32x2048x1, .f32⟩ : BufTy).Contents (Elt F) → (⟨S32x2048x512, .f32⟩ : BufTy).Contents (Elt F)),
    binary main_v1 main_call1_v4 main_call1_v5 (subf : (⟨S32x2048x512, .f32⟩ : BufTy).Contents (Elt F) → (⟨S32x2048x512, .f32⟩ : BufTy).Contents (Elt F) → (⟨S32x2048x512, .f32⟩ : BufTy).Contents (Elt F)),
    unary main_call1_v5 main_call1_v6 (Host.exp : (⟨S32x2048x512, .f32⟩ : BufTy).Contents (Elt F) → (⟨S32x2048x512, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    unary main_call1_v7 main_call1_v8 ((broadcastInDim S32x2048x1 ![0, 1] bcast_S32x2048_S32x2048x1_0_1) : (⟨S32x2048, .f32⟩ : BufTy).Contents (Elt F) → (⟨S32x2048x1, .f32⟩ : BufTy).Contents (Elt F)),
    unary main_call1_v8 main_call1_v9 (Host.log : (⟨S32x2048x1, .f32⟩ : BufTy).Contents (Elt F) → (⟨S32x2048x1, .f32⟩ : BufTy).Contents (Elt F)),
    unary main_call1_v9 main_call1_v10 ((broadcastInDim S32x2048x512 ![0, 1, 2] bcast_S32x2048x1_S32x2048x512_0_1_2) : (⟨S32x2048x1, .f32⟩ : BufTy).Contents (Elt F) → (⟨S32x2048x512, .f32⟩ : BufTy).Contents (Elt F)),
    binary main_call1_v5 main_call1_v10 main_v5 (subf : (⟨S32x2048x512, .f32⟩ : BufTy).Contents (Elt F) → (⟨S32x2048x512, .f32⟩ : BufTy).Contents (Elt F) → (⟨S32x2048x512, .f32⟩ : BufTy).Contents (Elt F)),
    binary main_v4 main_v3 main_v6 (mulf : (⟨S32x2048x512, .f32⟩ : BufTy).Contents (Elt F) → (⟨S32x2048x512, .f32⟩ : BufTy).Contents (Elt F) → (⟨S32x2048x512, .f32⟩ : BufTy).Contents (Elt F)),
    nullary main_cst (constant S_ .f32 0x00000000#32),
    binary main_v6 main_cst main_v7 ((fun x v => Host.reduceAdd x v reducesTo_S32x2048x512_S32x2048_d2 h_S_) : (⟨S32x2048x512, .f32⟩ : BufTy).Contents (Elt F) → (⟨S_, .f32⟩ : BufTy).Contents (Elt F) → (⟨S32x2048, .f32⟩ : BufTy).Contents (Elt F)),
    binary main_v4 main_v5 main_v8 ((fun l r => Host.dotGeneral dot_S32x2048x512_S32x2048x512_S32x2048x2048_2_2_1_1_0_0 none l r) : (⟨S32x2048x512, .f32⟩ : BufTy).Contents (Elt F) → (⟨S32x2048x512, .f32⟩ : BufTy).Contents (Elt F) → (⟨S32x2048x2048, .f32⟩ : BufTy).Contents (Elt F)),
    unary main_v7 main_v9 (broadcastInDim S32x2048x1 ![0, 1] bcast_S32x2048_S32x2048x1_0_1 : (⟨S32x2048, .f32⟩ : BufTy).Contents (Elt F) → (⟨S32x2048x1, .f32⟩ : BufTy).Contents (Elt F)),
    unary main_v9 main_v10 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v10 main_v8 main_v11 (subf : (⟨S32x2048x2048, .f32⟩ : BufTy).Contents (Elt F) → (⟨S32x2048x2048, .f32⟩ : BufTy).Contents (Elt F) → (⟨S32x2048x2048, .f32⟩ : BufTy).Contents (Elt F)),
    unary main_v11 main_v12 (Host.negf : (⟨S32x2048x2048, .f32⟩ : BufTy).Contents (Elt F) → (⟨S32x2048x2048, .f32⟩ : BufTy).Contents (Elt F)),
    nullary main_cst_0 (constant S_ .f32 0xFF800000#32),
    binary main_v12 main_cst_0 main_v13 ((fun x v => Host.reduce FloatOps.maximumf x v reducesTo_S32x2048x2048_S32x2048_d2 h_S_) : (⟨S32x2048x2048, .f32⟩ : BufTy).Contents (Elt F) → (⟨S_, .f32⟩ : BufTy).Contents (Elt F) → (⟨S32x2048, .f32⟩ : BufTy).Contents (Elt F)),
    nullary main_cst_1 (constant S_ .f32 0xFF800000#32),
    unary main_cst_1 main_v14 (broadcastInDim S32x2048 ![] bcast_S_S32x2048 : (⟨S_, .f32⟩ : BufTy).Contents (Elt F) → (⟨S32x2048, .f32⟩ : BufTy).Contents (Elt F)),
    binary main_v14 main_v13 main_v15 (maximumf : (⟨S32x2048, .f32⟩ : BufTy).Contents (Elt F) → (⟨S32x2048, .f32⟩ : BufTy).Contents (Elt F) → (⟨S32x2048, .f32⟩ : BufTy).Contents (Elt F)),
    unary main_v15 main_v16 (broadcastInDim S32x2048x1 ![0, 1] bcast_S32x2048_S32x2048x1_0_1 : (⟨S32x2048, .f32⟩ : BufTy).Contents (Elt F) → (⟨S32x2048x1, .f32⟩ : BufTy).Contents (Elt F)),
    unary main_v16 main_v17 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v12 main_v17 main_v18 (subf : (⟨S32x2048x2048, .f32⟩ : BufTy).Contents (Elt F) → (⟨S32x2048x2048, .f32⟩ : BufTy).Contents (Elt F) → (⟨S32x2048x2048, .f32⟩ : BufTy).Contents (Elt F)),
    unary main_v18 main_v19 (Host.exp : (⟨S32x2048x2048, .f32⟩ : BufTy).Contents (Elt F) → (⟨S32x2048x2048, .f32⟩ : BufTy).Contents (Elt F)),
    nullary main_cst_2 (constant S_ .f32 0x00000000#32),
    binary main_v19 main_cst_2 main_v20 ((fun x v => Host.reduceAdd x v reducesTo_S32x2048x2048_S32x2048_d2 h_S_) : (⟨S32x2048x2048, .f32⟩ : BufTy).Contents (Elt F) → (⟨S_, .f32⟩ : BufTy).Contents (Elt F) → (⟨S32x2048, .f32⟩ : BufTy).Contents (Elt F)),
    unary main_v20 main_v21 (broadcastInDim S32x2048x1 ![0, 1] bcast_S32x2048_S32x2048x1_0_1 : (⟨S32x2048, .f32⟩ : BufTy).Contents (Elt F) → (⟨S32x2048x1, .f32⟩ : BufTy).Contents (Elt F)),
    unary main_v21 main_v22 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v19 main_v22 main_v23 (Host.divf : (⟨S32x2048x2048, .f32⟩ : BufTy).Contents (Elt F) → (⟨S32x2048x2048, .f32⟩ : BufTy).Contents (Elt F) → (⟨S32x2048x2048, .f32⟩ : BufTy).Contents (Elt F)),
    binary main_v23 main_v2 main_v24 ((fun l r => Host.dotGeneral dot_S32x2048x2048_S32x2048x512_S32x2048x512_2_1_1_2_0_0 none l r) : (⟨S32x2048x2048, .f32⟩ : BufTy).Contents (Elt F) → (⟨S32x2048x512, .f32⟩ : BufTy).Contents (Elt F) → (⟨S32x2048x512, .f32⟩ : BufTy).Contents (Elt F)) ]

set_option maxRecDepth 8192 in
theorem ops_sub : (ops : List (HloOp τ sig (Elt F))).Forall fun op => op.bufs ⊆ tcRefs τ sig :=
  ⟨binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

end Cert.ReferenceIdeal.Run

end
-- ==== Proof.RefRun.lean ====
/-
  The reference's run: every weakly fair execution of its @main terminates with the result buffer at the last stage of
  the program read one operation at a time (`ReadP.val_main_v24` of the four arguments), the arguments unchanged.

  @main is a straight line of 57 host operations (the two log_softmax calls in place); the line is the list `Run.ops`,
  and the library's theorem for a straight line gives each buffer after the run as the fold of the operations' results
  over the launch contents. Reading that fold at the result buffer operation by operation gives the composed term,
  which is the last stage by the stages' definitions.
-/
import proofs.«419489_j33964601377282_3_alg».proof.Proof.RefOps
import proofs.«419489_j33964601377282_3_alg».proof.Proof.RefRunP
import proofs.«419489_j33964601377282_3_alg».proof.Proof.RefReadP
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

section Lit
variable {τ : Topo} {sig : RefSig} {Val : EltTy → Type}

/-- An operation spelt over typed references that carry the buffers' own types is the operation at the buffers
    (the transports along the type equations are identities). -/
theorem nullary_of_lit (y : Ref sig .tc) (v : y.ty.Contents Val) (hy2 : y.space ≠ .host) (hy3 : y.isScoped = false) :
    TRef.nullary (τ := τ) (TRef.of (T := y.ty) y rfl hy2 hy3) v = StableHlo.nullary y v (TRef.dev (TRef.of (T := y.ty) y rfl hy2 hy3)) := rfl

theorem unary_of_lit (x y : Ref sig .tc) (f : x.ty.Contents Val → y.ty.Contents Val) (hx2 : x.space ≠ .host) (hx3 : x.isScoped = false)
    (hy2 : y.space ≠ .host) (hy3 : y.isScoped = false) :
    TRef.unary (τ := τ) (TRef.of (T := x.ty) x rfl hx2 hx3) (TRef.of (T := y.ty) y rfl hy2 hy3) f
      = StableHlo.unary x y f (TRef.dev (TRef.of (T := x.ty) x rfl hx2 hx3)) (TRef.dev (TRef.of (T := y.ty) y rfl hy2 hy3)) := rfl

theorem binary_of_lit (a b y : Ref sig .tc) (f : a.ty.Contents Val → b.ty.Contents Val → y.ty.Contents Val)
    (ha2 : a.space ≠ .host) (ha3 : a.isScoped = false) (hb2 : b.space ≠ .host) (hb3 : b.isScoped = false)
    (hy2 : y.space ≠ .host) (hy3 : y.isScoped = false) :
    TRef.binary (τ := τ) (TRef.of (T := a.ty) a rfl ha2 ha3) (TRef.of (T := b.ty) b rfl hb2 hb3) (TRef.of (T := y.ty) y rfl hy2 hy3) f
      = StableHlo.binary a b y f (TRef.dev (TRef.of (T := a.ty) a rfl ha2 ha3)) (TRef.dev (TRef.of (T := b.ty) b rfl hb2 hb3))
          (TRef.dev (TRef.of (T := y.ty) y rfl hy2 hy3)) := rfl

end Lit

set_option maxRecDepth 8192 in
/-- The list is the program's own list of operations: entry by entry, an operation of an inlined call spelt over
    typed references is the same operation at the buffers (the function kept as it is, never opened). -/
theorem ops_eq : (Cert.ReferenceIdeal.ValueP.ops : List (HloOp τ sig (Elt F))) = ops := by
  simp only [Cert.ReferenceIdeal.ValueP.ops, ops, List.cons.injEq, and_true, true_and]
  and_intros
  all_goals (first
    | exact binary_of_lit _ _ _ _ _ _ _ _ _ _
    | exact unary_of_lit _ _ _ _ _ _ _
    | exact nullary_of_lit _ _ _ _)

/-- @main is the straight line of its operations. -/
theorem main_eq (c : Dev nD) : main (F := F) c = seq ops :=
  (Cert.ReferenceIdeal.ValueP.main_eq c).trans (congrArg seq ops_eq)

set_option maxRecDepth 8192 in
set_option maxHeartbeats 2000000 in
/-- The result buffer after the line is the last stage of the four arguments' launch contents. -/
theorem result_eq (m : (ℓ : Loc nD τ sig) → Buf (Elt F) ℓ) (c : Dev nD) :
    after (ops (F := F)) (launchContents m c) (Proc.devRef .tc main_v24)
      = Cert.ReferenceIdeal.ReadP.val_main_v24 (F := F) (m ((c.tc : Thread nD τ).loc main_arg0)) (m ((c.tc : Thread nD τ).loc main_arg1)) (m ((c.tc : Thread nD τ).loc main_arg2)) (m ((c.tc : Thread nD τ).loc main_arg3)) := by
  after_results_simp <;> rfl

set_option maxRecDepth 8192 in
set_option maxHeartbeats 2000000 in
/-- The run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Cert.ReferenceIdeal.ReadP.val_main_v24 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (result_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq Cert.ReferenceIdeal.ValueP.scopedRefs_eq Cert.ReferenceIdeal.ValueP.scopedSems_eq defs main (fun _ => ops) main_eq (fun _ => ops_sub) m ρ)

end Cert.ReferenceIdeal.Run

end
-- ==== Proof.Spec.lean ====
/-
  The mathematics both programs compute, index by index, over the extended reals.

  For an input x : [32, 2048, 512] and three weight matrices [512, 512], with
    q = x · Wq,  k = x · Wk,  v = x · Wv   (row r of batch b: `proj X W b r`),
  the kernel computes, per batch b and query row r,
    out[b, r, :] = Σ_j softmax_j( Σ_h softmax(q_r)[h] · log_softmax(k_j)[h] ) · v_j,
  and the reference computes
    out[b, r, :] = Σ_j softmax_j( −( Σ_h p_r[h] · log p_r[h]  −  Σ_h p_r[h] · log_softmax(k_j)[h] ) ) · v_j
  with p_r = exp(log_softmax(q_r)).  Both take a row's maximum as max(−∞, fold of max from −∞), subtract it,
  exponentiate, sum, and either divide (softmax) or subtract the logarithm of the sum (log_softmax).
  On finite inputs every intermediate is a real number, exp(log_softmax) is softmax, and a softmax does not
  change when a constant is added to every entry of its argument: so the two results agree (`outK_eq_outR`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An array of shape [32, 2048, 512] / [512, 512] of extended reals. -/
abbrev A3 : Type := (⟨3, ![32, 2048, 512]⟩ : Shape).Idx → EReal
abbrev A2 : Type := (⟨2, ![512, 512]⟩ : Shape).Idx → EReal

/-- The word both programs start a row maximum from: the f32 pattern of −∞. -/
abbrev negInf : EReal := Ideal.ofBits .f32 0xFF800000#32

/-- A row's maximum as both programs take it: the fold of `max` from −∞ over the row, then once more against −∞. -/
def rmax {n : ℕ} (f : Fin n → EReal) : EReal := max negInf ((Finset.univ : Finset (Fin n)).fold max negInf f)

/-- log_softmax of a row: (f − max) − log Σ exp(f − max). -/
def lsm {n : ℕ} (f : Fin n → EReal) (h : Fin n) : EReal :=
  (f h - rmax f) - Ideal.log (∑ k : Fin n, Ideal.exp (f k - rmax f))

/-- softmax of a row: exp(f − max) / Σ exp(f − max). -/
def sm {n : ℕ} (f : Fin n → EReal) (h : Fin n) : EReal :=
  Ideal.div (Ideal.exp (f h - rmax f)) (∑ k : Fin n, Ideal.exp (f k - rmax f))

/-- Row `r` of batch `b` of `x · W`. -/
def proj (X : A3) (W : A2) (b : Fin 32) (r : Fin 2048) (h : Fin 512) : EReal :=
  ∑ d : Fin 512, X (ix3 b r d) * W (ix2 d h)

/-- The kernel's result at (b, r, h). -/
def outK (X : A3) (Wq Wk Wv : A2) (b : Fin 32) (r : Fin 2048) (h : Fin 512) : EReal :=
  ∑ j : Fin 2048, sm (fun j' : Fin 2048 => ∑ h' : Fin 512, sm (proj X Wq b r) h' * lsm (proj X Wk b j') h') j * proj X Wv b j h

/-- The reference's result at (b, r, h). -/
def outR (X : A3) (Wq Wk Wv : A2) (b : Fin 32) (r : Fin 2048) (h : Fin 512) : EReal :=
  ∑ j : Fin 2048, sm (fun j' : Fin 2048 =>
      -((∑ h' : Fin 512, Ideal.exp (lsm (proj X Wq b r) h') * lsm (proj X Wq b r) h')
        - ∑ h' : Fin 512, Ideal.exp (lsm (proj X Wq b r) h') * lsm (proj X Wk b j') h')) j * proj X Wv b j h

end Cert.Spec

end
-- ==== Proof.SpecBridge.lean ====
/-
  On finite inputs the kernel's and the reference's results are the same extended reals.

  Every row that enters a softmax or a log-softmax here is a row of real numbers.  For such a row f with
  maximum M (a real that bounds the row and is attained in it) and S = Σ_k exp(f k − M) > 0,
    log_softmax f h = (f h − M) − log S   and   softmax f h = exp(f h − M) / S,
  both real, so exp(log_softmax f) = softmax f; and a row shifted by a constant a has maximum M + a, hence the
  same softmax.  The reference's scores are the kernel's scores minus a constant (the entropy term), so the two
  attention weights agree, and with them the two results.
-/
import proofs.«419489_j33964601377282_3_alg».proof.Proof.Spec

noncomputable section

namespace Cert.Spec

open Idealize.ShloMosaic Idealize.ShloMosaic.ValueIdx
open scoped BigOperators

/-- The starting word of a row maximum is −∞. -/
theorem negInf_eq_bot : negInf = ⊥ := by
  simp [negInf, Ideal.ofBits, Ideal.ieee]

/-- A finite sum of real numbers, read in the extended reals, is the real sum. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- The row maximum as the programs take it is the supremum of the row. -/
theorem rmax_eq_sup {n : ℕ} (f : Fin n → EReal) : rmax f = Finset.univ.sup f := by
  unfold rmax
  rw [negInf_eq_bot]
  exact bot_sup_eq _

/-- The maximum of a real row is any real that bounds the row and is attained in it. -/
theorem rmax_coe {n : ℕ} (f : Fin n → ℝ) (M : ℝ) (hle : ∀ i, f i ≤ M) (hex : ∃ i, f i = M) :
    rmax (fun i => (f i : EReal)) = (M : EReal) := by
  rw [rmax_eq_sup]
  apply le_antisymm
  · exact Finset.sup_le fun i _ => EReal.coe_le_coe_iff.2 (hle i)
  · obtain ⟨i, hi⟩ := hex
    rw [← hi]
    exact Finset.le_sup (f := fun i => (f i : EReal)) (Finset.mem_univ i)

/-- A nonempty real row has a maximum. -/
theorem exists_rowMax {n : ℕ} (hn : 0 < n) (f : Fin n → ℝ) :
    ∃ M : ℝ, (∀ i, f i ≤ M) ∧ ∃ i, f i = M := by
  haveI : Nonempty (Fin n) := ⟨⟨0, hn⟩⟩
  obtain ⟨i, _, hi⟩ := Finset.exists_max_image Finset.univ f Finset.univ_nonempty
  exact ⟨f i, fun j => hi j (Finset.mem_univ j), i, rfl⟩

/-- The normalising sum of a row whose maximum is attained is positive. -/
theorem sum_exp_pos {n : ℕ} (f : Fin n → ℝ) (M : ℝ) (hex : ∃ i, f i = M) :
    0 < ∑ k : Fin n, Real.exp (f k - M) := by
  obtain ⟨i, _⟩ := hex
  exact Finset.sum_pos (fun k _ => Real.exp_pos _) ⟨i, Finset.mem_univ i⟩

/-- softmax of a real row with maximum M: exp(f h − M) / Σ exp(f k − M), a real. -/
theorem sm_coe {n : ℕ} (f : Fin n → ℝ) (M : ℝ) (hle : ∀ i, f i ≤ M) (hex : ∃ i, f i = M) (h : Fin n) :
    sm (fun i => (f i : EReal)) h
      = ((Real.exp (f h - M) / ∑ k : Fin n, Real.exp (f k - M) : ℝ) : EReal) := by
  have hS : (∑ k : Fin n, Real.exp (f k - M)) ≠ 0 := (sum_exp_pos f M hex).ne'
  unfold sm
  rw [rmax_coe f M hle hex]
  simp only [← EReal.coe_sub, Ideal.exp_coe, coe_sum]
  rw [Ideal.div_coe hS, ← EReal.coe_mul, mul_one_div]

/-- log_softmax of a real row with maximum M: (f h − M) − log Σ exp(f k − M), a real. -/
theorem lsm_coe {n : ℕ} (f : Fin n → ℝ) (M : ℝ) (hle : ∀ i, f i ≤ M) (hex : ∃ i, f i = M) (h : Fin n) :
    lsm (fun i => (f i : EReal)) h
      = (((f h - M) - Real.log (∑ k : Fin n, Real.exp (f k - M)) : ℝ) : EReal) := by
  have hS : 0 < ∑ k : Fin n, Real.exp (f k - M) := sum_exp_pos f M hex
  unfold lsm
  rw [rmax_coe f M hle hex]
  simp only [← EReal.coe_sub, Ideal.exp_coe, coe_sum]
  rw [Ideal.log_coe, if_neg (not_le.2 hS), ← EReal.coe_sub]

/-- softmax of a nonempty real row is real-valued. -/
theorem sm_coe_isReal {n : ℕ} (hn : 0 < n) (f : Fin n → ℝ) :
    ∃ p : Fin n → ℝ, ∀ h, sm (fun i => (f i : EReal)) h = ((p h : ℝ) : EReal) := by
  obtain ⟨M, hle, hex⟩ := exists_rowMax hn f
  exact ⟨fun h => Real.exp (f h - M) / ∑ k : Fin n, Real.exp (f k - M), fun h => sm_coe f M hle hex h⟩

/-- log_softmax of a nonempty real row is real-valued. -/
theorem lsm_coe_isReal {n : ℕ} (hn : 0 < n) (f : Fin n → ℝ) :
    ∃ l : Fin n → ℝ, ∀ h, lsm (fun i => (f i : EReal)) h = ((l h : ℝ) : EReal) := by
  obtain ⟨M, hle, hex⟩ := exists_rowMax hn f
  exact ⟨fun h => (f h - M) - Real.log (∑ k : Fin n, Real.exp (f k - M)), fun h => lsm_coe f M hle hex h⟩

/-- exp(log_softmax f) = softmax f on a nonempty real row. -/
theorem exp_lsm_coe {n : ℕ} (hn : 0 < n) (f : Fin n → ℝ) (h : Fin n) :
    Ideal.exp (lsm (fun i => (f i : EReal)) h) = sm (fun i => (f i : EReal)) h := by
  obtain ⟨M, hle, hex⟩ := exists_rowMax hn f
  have hS : 0 < ∑ k : Fin n, Real.exp (f k - M) := sum_exp_pos f M hex
  rw [lsm_coe f M hle hex, sm_coe f M hle hex, Ideal.exp_coe]
  refine congrArg Real.toEReal ?_
  exact (Real.exp_sub _ _).trans (by rw [Real.exp_log hS])

/-- A softmax does not change when a constant is added to every entry of a nonempty real row:
    the maximum moves by the constant, so every difference f k − M stays what it was. -/
theorem sm_coe_add_const {n : ℕ} (hn : 0 < n) (f : Fin n → ℝ) (a : ℝ) :
    sm (fun j => ((f j + a : ℝ) : EReal)) = sm (fun j => (f j : EReal)) := by
  obtain ⟨M, hle, hex⟩ := exists_rowMax hn f
  have hle' : ∀ i, f i + a ≤ M + a := fun i => by simpa using hle i
  have hex' : ∃ i, f i + a = M + a := by
    obtain ⟨i, hi⟩ := hex
    exact ⟨i, by rw [hi]⟩
  have e : ∀ x : ℝ, x + a - (M + a) = x - M := fun x => by ring
  funext h
  rw [sm_coe (fun j => f j + a) (M + a) hle' hex' h, sm_coe f M hle hex h]
  simp only [e]

/-- Two rows, one real-valued and the other the same reals plus a constant, have the same softmax. -/
theorem sm_eq_of_shift {n : ℕ} (hn : 0 < n) (rK rR : Fin n → EReal) (c : Fin n → ℝ) (a : ℝ)
    (hK : ∀ j, rK j = ((c j : ℝ) : EReal)) (hR : ∀ j, rR j = ((c j + a : ℝ) : EReal)) : sm rK = sm rR := by
  have eK : rK = fun j => ((c j : ℝ) : EReal) := funext hK
  have eR : rR = fun j => ((c j + a : ℝ) : EReal) := funext hR
  rw [eK, eR]
  exact (sm_coe_add_const hn c a).symm

/-- Row r of batch b of x · W on finite inputs, as real numbers. -/
def projR (X : A3) (W : A2) (b : Fin 32) (r : Fin 2048) (h : Fin 512) : ℝ :=
  ∑ d : Fin 512, (X (ix3 b r d)).toReal * (W (ix2 d h)).toReal

/-- On finite inputs a projected row is a row of real numbers. -/
theorem proj_eq_coe (X : A3) (W : A2) (hX : ∀ i, X i ≠ ⊥ ∧ X i ≠ ⊤) (hW : ∀ i, W i ≠ ⊥ ∧ W i ≠ ⊤)
    (b : Fin 32) (r : Fin 2048) : proj X W b r = fun h => ((projR X W b r h : ℝ) : EReal) := by
  funext h
  unfold proj projR
  refine Eq.trans (Finset.sum_congr rfl fun d _ => ?_)
    (coe_sum Finset.univ fun d : Fin 512 => (X (ix3 b r d)).toReal * (W (ix2 d h)).toReal)
  rw [EReal.coe_mul, EReal.coe_toReal (hX _).2 (hX _).1, EReal.coe_toReal (hW _).2 (hW _).1]

/-- On finite inputs the two results are equal extended reals. -/
theorem outK_eq_outR (X : A3) (Wq Wk Wv : A2)
    (hX : ∀ i, X i ≠ ⊥ ∧ X i ≠ ⊤) (hq : ∀ i, Wq i ≠ ⊥ ∧ Wq i ≠ ⊤) (hk : ∀ i, Wk i ≠ ⊥ ∧ Wk i ≠ ⊤) (hv : ∀ i, Wv i ≠ ⊥ ∧ Wv i ≠ ⊤)
    (b : Fin 32) (r : Fin 2048) (h : Fin 512) :
    outK X Wq Wk Wv b r h = outR X Wq Wk Wv b r h := by
  have h512 : 0 < 512 := by norm_num
  have h2048 : 0 < 2048 := by norm_num
  -- the query row and the key rows are real
  have hqf : proj X Wq b r = fun h' => ((projR X Wq b r h' : ℝ) : EReal) := proj_eq_coe X Wq hX hq b r
  have hkf : ∀ j' : Fin 2048, proj X Wk b j' = fun h' => ((projR X Wk b j' h' : ℝ) : EReal) :=
    fun j' => proj_eq_coe X Wk hX hk b j'
  -- p = softmax(q_r), lq = log_softmax(q_r), lk j' = log_softmax(k_j'), as reals
  obtain ⟨p, hp⟩ := sm_coe_isReal h512 (projR X Wq b r)
  obtain ⟨lq, hlq⟩ := lsm_coe_isReal h512 (projR X Wq b r)
  have hlk' : ∀ j' : Fin 2048, ∃ l : Fin 512 → ℝ,
      ∀ h', lsm (fun i => ((projR X Wk b j' i : ℝ) : EReal)) h' = ((l h' : ℝ) : EReal) :=
    fun j' => lsm_coe_isReal h512 (projR X Wk b j')
  choose lk hlk using hlk'
  -- the kernel's score of key j': Σ_h p[h] · lk j' [h]
  have eK : ∀ j' : Fin 2048,
      (∑ h' : Fin 512, sm (proj X Wq b r) h' * lsm (proj X Wk b j') h')
        = ((∑ h' : Fin 512, p h' * lk j' h' : ℝ) : EReal) := by
    intro j'
    rw [hqf, hkf j']
    refine Eq.trans (Finset.sum_congr rfl fun h' _ => ?_) (coe_sum Finset.univ fun h' : Fin 512 => p h' * lk j' h')
    rw [hp, hlk, ← EReal.coe_mul]
  -- the reference's entropy term: Σ_h p[h] · lq[h]
  have eN : (∑ h' : Fin 512, Ideal.exp (lsm (proj X Wq b r) h') * lsm (proj X Wq b r) h')
        = ((∑ h' : Fin 512, p h' * lq h' : ℝ) : EReal) := by
    rw [hqf]
    refine Eq.trans (Finset.sum_congr rfl fun h' _ => ?_) (coe_sum Finset.univ fun h' : Fin 512 => p h' * lq h')
    rw [exp_lsm_coe h512 (projR X Wq b r), hp, hlq, ← EReal.coe_mul]
  -- the reference's cross term is the kernel's score
  have eC : ∀ j' : Fin 2048,
      (∑ h' : Fin 512, Ideal.exp (lsm (proj X Wq b r) h') * lsm (proj X Wk b j') h')
        = ((∑ h' : Fin 512, p h' * lk j' h' : ℝ) : EReal) := by
    intro j'
    rw [hqf, hkf j']
    refine Eq.trans (Finset.sum_congr rfl fun h' _ => ?_) (coe_sum Finset.univ fun h' : Fin 512 => p h' * lk j' h')
    rw [exp_lsm_coe h512 (projR X Wq b r), hp, hlk, ← EReal.coe_mul]
  -- the reference's score of key j' is the kernel's minus the entropy term
  have eR : ∀ j' : Fin 2048,
      -((∑ h' : Fin 512, Ideal.exp (lsm (proj X Wq b r) h') * lsm (proj X Wq b r) h')
          - ∑ h' : Fin 512, Ideal.exp (lsm (proj X Wq b r) h') * lsm (proj X Wk b j') h')
        = (((∑ h' : Fin 512, p h' * lk j' h') + -(∑ h' : Fin 512, p h' * lq h') : ℝ) : EReal) := by
    intro j'
    rw [eN, eC j', ← EReal.coe_sub, ← EReal.coe_neg]
    refine congrArg Real.toEReal ?_
    ring
  have _ := hv
  unfold outK outR
  refine Finset.sum_congr rfl fun j _ => ?_
  refine congrArg (fun w : EReal => w * proj X Wv b j h) (congrFun ?_ j)
  exact sm_eq_of_shift h2048 _ _ (fun j' => ∑ h' : Fin 512, p h' * lk j' h') (-(∑ h' : Fin 512, p h' * lq h'))
    (fun j' => eK j') (fun j' => eR j')

end Cert.Spec

end
-- ==== Proof.Finite.lean ====
/-
  The precondition says every input entry is a finite extended real.

  The printed predicate compares, entry by entry, the absolute value of each argument with the
  word 0x7F800000 (which denotes +∞), reduces each array of comparison bits by `and` over all axes,
  and joins the four results by `and`. If the outcome is 1, every comparison bit is 1, so
  max x (-x) < ⊤ at every entry x, and an extended real with that property is neither ⊥ nor ⊤.
-/
import proofs.«419489_j33964601377282_3_alg».proof.Pre_finite_inputs
import proofs.«419489_j33964601377282_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs

/-- The word `0x7F800000` denotes `+∞`. -/
theorem inf_word : Ideal.ofBits .f32 0x7F800000#32 = (⊤ : EReal) := by
  simp [Ideal.ofBits, Ideal.ieee]

/-- One entry: if the bit of `|x| < +∞` is set, `x` is neither infinity. At `⊥` and at `⊤` the
    absolute value `max x (-x)` is `⊤`, which is not below `⊤`. -/
theorem finite_of_abs_lt_top (x : EReal) (h : Ideal.cmp .olt (max x (-x)) ⊤ = 1#1) : x ≠ ⊥ ∧ x ≠ ⊤ := by
  induction x using EReal.rec with
  | bot => simp [Ideal.cmp] at h
  | coe r => exact ⟨EReal.coe_ne_bot r, EReal.coe_ne_top r⟩
  | top => simp [Ideal.cmp] at h

/-- The result shape of a reduction over all axes has exactly one index. -/
instance subsingleton_scalar_idx : Subsingleton S_.Idx := ⟨fun a b => funext fun d => d.elim0⟩

/-- One array: if the `and` over all axes of the bits `|a i| < +∞` is 1, every entry of `a` is finite. -/
theorem finite_of_all {s : Shape} (a : FVec Ideal s .f32)
    (hb : S_.BroadcastsInDim s (![] : Fin 0 → Fin s.rank)) {axes : List (Fin s.rank)}
    (hr : s.ReducesTo axes S_) (hu : 0 < S_.numel) (init : IVec S_ 1) (j : S_.Idx)
    (e : Host.reduce IntOp.andi
        (cmpf .olt (Host.absf a) (broadcastInDim s ![] hb (constant S_ .f32 0x7F800000#32))) init hr hu j = 1#1)
    (i : s.Idx) : a i ≠ ⊥ ∧ a i ≠ ⊤ := by
  have h1 := Host.reduce_andi_all _ init hr hu j e i
  have h2 : Ideal.cmp .olt (max (a i) (-(a i))) (Ideal.ofBits .f32 0x7F800000#32) = 1#1 := h1
  rw [inf_word] at h2
  exact finite_of_abs_lt_top (a i) h2

/-- If the printed predicate `finite_inputs` is all ones at the extended reals, no entry of any argument is ±∞. -/
theorem finite_of_pre (a0 : FVec Ideal S32x2048x512 .f32) (a1 a2 a3 : FVec Ideal S512x512 .f32)
    (h : Cert.Pre_finite_inputs.fn (F := Ideal) a0 a1 a2 a3 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤) := by
  have h0 := congrFun h ValueIdx.ix0
  dsimp only [fn, fn_part1] at h0
  -- the four reductions are joined by `and`, nested to the left: split them apart
  obtain ⟨h012, e3⟩ := IntOp.andi_eq_one.1 h0
  obtain ⟨h01, e2⟩ := IntOp.andi_eq_one.1 h012
  obtain ⟨e0, e1⟩ := IntOp.andi_eq_one.1 h01
  exact ⟨finite_of_all a0 _ _ _ _ _ e0, finite_of_all a1 _ _ _ _ _ e1,
    finite_of_all a2 _ _ _ _ _ e2, finite_of_all a3 _ _ _ _ _ e3⟩

end Cert.Finite

end
-- ==== Proof.RefValue.lean ====
/-
  The reference's result read at one index (at the extended reals).

  The reference program is read stage by stage.  The three projections are the sums `proj`; a reduction with
  `maximum` from −∞ over the last axis is, at (b, r), the fold of `max` from −∞ over that row, so that
  "maximum with −∞" of it is `rmax` of the row; each log_softmax is then `lsm` of a projected row, the score of
  key row j for query row r is −(Σ_h p_r[h]·log p_r[h] − Σ_h p_r[h]·log_softmax(k_j)[h]), the softmax over j is
  `sm` of the scores, and the last contraction sums it against the value rows: `outR`.
-/
import proofs.«419489_j33964601377282_3_alg».proof.Proof.RefReadP
import proofs.«419489_j33964601377282_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Spec
open scoped BigOperators

/-! ## Indices by coordinates -/

-- two indices of rank 3 (rank 2) are equal when their coordinates are, axis by axis
local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))

/-! ## A maximum over the last axis, read at (b, r) -/

/-- The index (b, r) with `k` put back on the last axis is (b, r, k). -/
theorem lift_ix3 {n : ℕ} (hr : (⟨3, ![32, 2048, n]⟩ : Shape).Reduces [2] (⟨2, ![32, 2048]⟩ : Shape))
    (b : Fin 32) (r : Fin 2048) (k : Fin n) : hr.lift (ix2 b r) k = ix3 b r k := by
  idx3

/-- From −∞, the reduction with `maximum` over the last axis is at (b, r) the fold of `max` from −∞ over row (b, r). -/
theorem reduce_max_row {n : ℕ} (y : FVec Ideal (⟨3, ![32, 2048, n]⟩ : Shape) .f32)
    (c : FVec Ideal S_ .f32) (hc : ∀ i, c i = negInf)
    (h' : (⟨3, ![32, 2048, n]⟩ : Shape).ReducesTo [2] (⟨2, ![32, 2048]⟩ : Shape))
    (hr : (⟨3, ![32, 2048, n]⟩ : Shape).Reduces [2] (⟨2, ![32, 2048]⟩ : Shape))
    (hu : 0 < S_.numel) (b : Fin 32) (r : Fin 2048) :
    Host.reduce (FloatOps.maximumf (F := Ideal) (φ := .f32)) y c h' hu (ix2 b r)
      = (Finset.univ : Finset (Fin n)).fold max negInf (fun k => y (ix3 b r k)) := by
  rw [Host.reduce_eq_fold_single (FloatOps.maximumf (F := Ideal) (φ := .f32)) y c h' hr hu, hc]
  exact congrArg (fun f => Finset.fold max negInf f (Finset.univ : Finset (Fin n)))
    (funext fun k => congrArg y (lift_ix3 hr b r k))

/-! ## The three projections -/

/-- Stage v0 (the input times the first weight matrix) at (b, r, h). -/
theorem v0_at (x0 : FVec Ideal S32x2048x512 .f32) (x1 : FVec Ideal S512x512 .f32) (b : Fin 32) (r : Fin 2048) (h : Fin 512) :
    val_main_v0 (F := Ideal) x0 x1 (ix3 b r h) = proj x0 x1 b r h := by
  rw [val_main_v0_apply]
  unfold proj
  refine Finset.sum_congr rfl fun k _ => ?_
  have el : lidx_main_v0 (ix3 b r h) k = ix3 b r k := by idx3
  have er : ridx_main_v0 (ix3 b r h) k = ix2 k h := by idx2
  rw [el, er]

/-- Stage v1 (the input times the second weight matrix) at (b, r, h). -/
theorem v1_at (x0 : FVec Ideal S32x2048x512 .f32) (x2 : FVec Ideal S512x512 .f32) (b : Fin 32) (r : Fin 2048) (h : Fin 512) :
    val_main_v1 (F := Ideal) x0 x2 (ix3 b r h) = proj x0 x2 b r h := by
  rw [val_main_v1_apply]
  unfold proj
  refine Finset.sum_congr rfl fun k _ => ?_
  have el : lidx_main_v1 (ix3 b r h) k = ix3 b r k := by idx3
  have er : ridx_main_v1 (ix3 b r h) k = ix2 k h := by idx2
  rw [el, er]

/-- Stage v2 (the input times the third weight matrix) at (b, r, h). -/
theorem v2_at (x0 : FVec Ideal S32x2048x512 .f32) (x3 : FVec Ideal S512x512 .f32) (b : Fin 32) (r : Fin 2048) (h : Fin 512) :
    val_main_v2 (F := Ideal) x0 x3 (ix3 b r h) = proj x0 x3 b r h := by
  rw [val_main_v2_apply]
  unfold proj
  refine Finset.sum_congr rfl fun k _ => ?_
  have el : lidx_main_v2 (ix3 b r h) k = ix3 b r k := by idx3
  have er : ridx_main_v2 (ix3 b r h) k = ix2 k h := by idx2
  rw [el, er]

/-! ## The first log_softmax (of stage v0) -/

/-- Its maximum over the last axis, at (b, r): the fold of `max` from −∞ over the projected row. -/
theorem call0_v0_at (x0 : FVec Ideal S32x2048x512 .f32) (x1 : FVec Ideal S512x512 .f32) (b : Fin 32) (r : Fin 2048) :
    val_main_call0_v0 (F := Ideal) x0 x1 (ix2 b r)
      = (Finset.univ : Finset (Fin 512)).fold max negInf (proj x0 x1 b r) := by
  unfold val_main_call0_v0
  refine (reduce_max_row (val_main_v0 (F := Ideal) x0 x1) (val_main_call0_cst (F := Ideal)) (fun _ => rfl) _
    (by decide) _ b r).trans ?_
  exact congrArg (fun f => Finset.fold max negInf f (Finset.univ : Finset (Fin 512)))
    (funext fun k => v0_at x0 x1 b r k)

/-- The row maximum it subtracts, broadcast back to (b, r, h). -/
theorem call0_v4_at (x0 : FVec Ideal S32x2048x512 .f32) (x1 : FVec Ideal S512x512 .f32) (b : Fin 32) (r : Fin 2048) (h : Fin 512) :
    val_main_call0_v4 (F := Ideal) x0 x1 (ix3 b r h) = rmax (proj x0 x1 b r) := by
  rw [val_main_call0_v4_apply, val_main_call0_v3_apply, val_main_call0_v2_apply, val_main_call0_v1_apply,
    val_main_call0_cst_0_apply]
  have e : idx_main_call0_v3 (idx_main_call0_v4 (ix3 b r h)) = ix2 b r := by idx2
  rw [e, call0_v0_at]
  rfl

/-- The shifted row, at (b, r, h). -/
theorem call0_v5_at (x0 : FVec Ideal S32x2048x512 .f32) (x1 : FVec Ideal S512x512 .f32) (b : Fin 32) (r : Fin 2048) (h : Fin 512) :
    val_main_call0_v5 (F := Ideal) x0 x1 (ix3 b r h) = proj x0 x1 b r h - rmax (proj x0 x1 b r) := by
  rw [val_main_call0_v5_apply, call0_v4_at, v0_at]
  rfl

/-- The logarithm of the row's sum of exponentials, broadcast back to (b, r, h). -/
theorem call0_v10_at (x0 : FVec Ideal S32x2048x512 .f32) (x1 : FVec Ideal S512x512 .f32) (b : Fin 32) (r : Fin 2048) (h : Fin 512) :
    val_main_call0_v10 (F := Ideal) x0 x1 (ix3 b r h)
      = Ideal.log (∑ k : Fin 512, Ideal.exp (proj x0 x1 b r k - rmax (proj x0 x1 b r))) := by
  rw [val_main_call0_v10_apply, val_main_call0_v9_apply, val_main_call0_v8_apply, val_main_call0_v7_apply,
    val_main_call0_cst_1_apply]
  have e : idx_main_call0_v8 (idx_main_call0_v10 (ix3 b r h)) = ix2 b r := by idx2
  rw [e, Ideal.ofBits_def, Ideal.ofBits_zero_f32, zero_add, Ideal.hostUnary_log_def]
  refine congrArg Ideal.log (Finset.sum_congr rfl fun k _ => ?_)
  have e' : idx_main_call0_v7 (ix2 b r) k = ix3 b r k := by idx3
  rw [e', val_main_call0_v6_apply, call0_v5_at]
  rfl

/-- Stage v3, the log_softmax itself, at (b, r, h). -/
theorem v3_at (x0 : FVec Ideal S32x2048x512 .f32) (x1 : FVec Ideal S512x512 .f32) (b : Fin 32) (r : Fin 2048) (h : Fin 512) :
    val_main_v3 (F := Ideal) x0 x1 (ix3 b r h) = lsm (proj x0 x1 b r) h := by
  rw [val_main_v3_apply, call0_v5_at, call0_v10_at]
  rfl

/-! ## The second log_softmax (of stage v1) -/

/-- Its maximum over the last axis, at (b, r): the fold of `max` from −∞ over the projected row. -/
theorem call1_v0_at (x0 : FVec Ideal S32x2048x512 .f32) (x2 : FVec Ideal S512x512 .f32) (b : Fin 32) (r : Fin 2048) :
    val_main_call1_v0 (F := Ideal) x0 x2 (ix2 b r)
      = (Finset.univ : Finset (Fin 512)).fold max negInf (proj x0 x2 b r) := by
  unfold val_main_call1_v0
  refine (reduce_max_row (val_main_v1 (F := Ideal) x0 x2) (val_main_call1_cst (F := Ideal)) (fun _ => rfl) _
    (by decide) _ b r).trans ?_
  exact congrArg (fun f => Finset.fold max negInf f (Finset.univ : Finset (Fin 512)))
    (funext fun k => v1_at x0 x2 b r k)

/-- The row maximum it subtracts, broadcast back to (b, r, h). -/
theorem call1_v4_at (x0 : FVec Ideal S32x2048x512 .f32) (x2 : FVec Ideal S512x512 .f32) (b : Fin 32) (r : Fin 2048) (h : Fin 512) :
    val_main_call1_v4 (F := Ideal) x0 x2 (ix3 b r h) = rmax (proj x0 x2 b r) := by
  rw [val_main_call1_v4_apply, val_main_call1_v3_apply, val_main_call1_v2_apply, val_main_call1_v1_apply,
    val_main_call1_cst_0_apply]
  have e : idx_main_call1_v3 (idx_main_call1_v4 (ix3 b r h)) = ix2 b r := by idx2
  rw [e, call1_v0_at]
  rfl

/-- The shifted row, at (b, r, h). -/
theorem call1_v5_at (x0 : FVec Ideal S32x2048x512 .f32) (x2 : FVec Ideal S512x512 .f32) (b : Fin 32) (r : Fin 2048) (h : Fin 512) :
    val_main_call1_v5 (F := Ideal) x0 x2 (ix3 b r h) = proj x0 x2 b r h - rmax (proj x0 x2 b r) := by
  rw [val_main_call1_v5_apply, call1_v4_at, v1_at]
  rfl

/-- The logarithm of the row's sum of exponentials, broadcast back to (b, r, h). -/
theorem call1_v10_at (x0 : FVec Ideal S32x2048x512 .f32) (x2 : FVec Ideal S512x512 .f32) (b : Fin 32) (r : Fin 2048) (h : Fin 512) :
    val_main_call1_v10 (F := Ideal) x0 x2 (ix3 b r h)
      = Ideal.log (∑ k : Fin 512, Ideal.exp (proj x0 x2 b r k - rmax (proj x0 x2 b r))) := by
  rw [val_main_call1_v10_apply, val_main_call1_v9_apply, val_main_call1_v8_apply, val_main_call1_v7_apply,
    val_main_call1_cst_1_apply]
  have e : idx_main_call1_v8 (idx_main_call1_v10 (ix3 b r h)) = ix2 b r := by idx2
  rw [e, Ideal.ofBits_def, Ideal.ofBits_zero_f32, zero_add, Ideal.hostUnary_log_def]
  refine congrArg Ideal.log (Finset.sum_congr rfl fun k _ => ?_)
  have e' : idx_main_call1_v7 (ix2 b r) k = ix3 b r k := by idx3
  rw [e', val_main_call1_v6_apply, call1_v5_at]
  rfl

/-- Stage v5, the log_softmax itself, at (b, r, h). -/
theorem v5_at (x0 : FVec Ideal S32x2048x512 .f32) (x2 : FVec Ideal S512x512 .f32) (b : Fin 32) (r : Fin 2048) (h : Fin 512) :
    val_main_v5 (F := Ideal) x0 x2 (ix3 b r h) = lsm (proj x0 x2 b r) h := by
  rw [val_main_v5_apply, call1_v5_at, call1_v10_at]
  rfl

/-! ## The scores -/

/-- Stage v4: the exponential of the first log_softmax. -/
theorem v4_at (x0 : FVec Ideal S32x2048x512 .f32) (x1 : FVec Ideal S512x512 .f32) (b : Fin 32) (r : Fin 2048) (h : Fin 512) :
    val_main_v4 (F := Ideal) x0 x1 (ix3 b r h) = Ideal.exp (lsm (proj x0 x1 b r) h) := by
  rw [val_main_v4_apply, v3_at]
  rfl

/-- Stage v7: the negative entropy Σ_h p[h] · log p[h] of query row (b, r). -/
theorem v7_at (x0 : FVec Ideal S32x2048x512 .f32) (x1 : FVec Ideal S512x512 .f32) (b : Fin 32) (r : Fin 2048) :
    val_main_v7 (F := Ideal) x0 x1 (ix2 b r)
      = ∑ h : Fin 512, Ideal.exp (lsm (proj x0 x1 b r) h) * lsm (proj x0 x1 b r) h := by
  rw [val_main_v7_apply, val_main_cst_apply, Ideal.ofBits_def, Ideal.ofBits_zero_f32, zero_add]
  refine Finset.sum_congr rfl fun k _ => ?_
  have e : idx_main_v7 (ix2 b r) k = ix3 b r k := by idx3
  rw [e, val_main_v6_apply, v4_at, v3_at]
  rfl

/-- Stage v8: the cross term Σ_h p_r[h] · log_softmax(k_j)[h], at (b, r, j). -/
theorem v8_at (x0 : FVec Ideal S32x2048x512 .f32) (x1 x2 : FVec Ideal S512x512 .f32) (b : Fin 32) (r j : Fin 2048) :
    val_main_v8 (F := Ideal) x0 x1 x2 (ix3 b r j)
      = ∑ h : Fin 512, Ideal.exp (lsm (proj x0 x1 b r) h) * lsm (proj x0 x2 b j) h := by
  rw [val_main_v8_apply]
  refine Finset.sum_congr rfl fun k _ => ?_
  have el : lidx_main_v8 (ix3 b r j) k = ix3 b r k := by idx3
  have er : ridx_main_v8 (ix3 b r j) k = ix3 b j k := by idx3
  rw [el, er, v4_at, v5_at]

/-- The reference's score of key row `j` for query row `r` of batch `b`. -/
def score (x0 : FVec Ideal S32x2048x512 .f32) (x1 x2 : FVec Ideal S512x512 .f32) (b : Fin 32) (r : Fin 2048) (j : Fin 2048) : EReal :=
  -((∑ h' : Fin 512, Ideal.exp (lsm (proj x0 x1 b r) h') * lsm (proj x0 x1 b r) h')
    - ∑ h' : Fin 512, Ideal.exp (lsm (proj x0 x1 b r) h') * lsm (proj x0 x2 b j) h')

/-- Stage v12 at (b, r, j) is that score. -/
theorem v12_at (x0 : FVec Ideal S32x2048x512 .f32) (x1 x2 : FVec Ideal S512x512 .f32) (b : Fin 32) (r j : Fin 2048) :
    val_main_v12 (F := Ideal) x0 x1 x2 (ix3 b r j) = score x0 x1 x2 b r j := by
  rw [val_main_v12_apply, val_main_v11_apply, val_main_v10_apply, val_main_v9_apply]
  have e : idx_main_v9 (idx_main_v10 (ix3 b r j)) = ix2 b r := by idx2
  rw [e, v7_at, v8_at]
  rfl

/-! ## The softmax over the key rows -/

/-- Its maximum over the last axis, at (b, r): the fold of `max` from −∞ over the scores. -/
theorem v13_at (x0 : FVec Ideal S32x2048x512 .f32) (x1 x2 : FVec Ideal S512x512 .f32) (b : Fin 32) (r : Fin 2048) :
    val_main_v13 (F := Ideal) x0 x1 x2 (ix2 b r)
      = (Finset.univ : Finset (Fin 2048)).fold max negInf (score x0 x1 x2 b r) := by
  unfold val_main_v13
  refine (reduce_max_row (val_main_v12 (F := Ideal) x0 x1 x2) (val_main_cst_0 (F := Ideal)) (fun _ => rfl) _
    (by decide) _ b r).trans ?_
  exact congrArg (fun f => Finset.fold max negInf f (Finset.univ : Finset (Fin 2048)))
    (funext fun k => v12_at x0 x1 x2 b r k)

/-- The maximum it subtracts, broadcast back to (b, r, j). -/
theorem v17_at (x0 : FVec Ideal S32x2048x512 .f32) (x1 x2 : FVec Ideal S512x512 .f32) (b : Fin 32) (r j : Fin 2048) :
    val_main_v17 (F := Ideal) x0 x1 x2 (ix3 b r j) = rmax (score x0 x1 x2 b r) := by
  rw [val_main_v17_apply, val_main_v16_apply, val_main_v15_apply, val_main_v14_apply, val_main_cst_1_apply]
  have e : idx_main_v16 (idx_main_v17 (ix3 b r j)) = ix2 b r := by idx2
  rw [e, v13_at]
  rfl

/-- Stage v19: the exponential of the shifted score. -/
theorem v19_at (x0 : FVec Ideal S32x2048x512 .f32) (x1 x2 : FVec Ideal S512x512 .f32) (b : Fin 32) (r j : Fin 2048) :
    val_main_v19 (F := Ideal) x0 x1 x2 (ix3 b r j)
      = Ideal.exp (score x0 x1 x2 b r j - rmax (score x0 x1 x2 b r)) := by
  rw [val_main_v19_apply, val_main_v18_apply, v12_at, v17_at]
  rfl

/-- Stage v22: the sum of those exponentials over the key rows, broadcast back to (b, r, j). -/
theorem v22_at (x0 : FVec Ideal S32x2048x512 .f32) (x1 x2 : FVec Ideal S512x512 .f32) (b : Fin 32) (r j : Fin 2048) :
    val_main_v22 (F := Ideal) x0 x1 x2 (ix3 b r j)
      = ∑ k : Fin 2048, Ideal.exp (score x0 x1 x2 b r k - rmax (score x0 x1 x2 b r)) := by
  rw [val_main_v22_apply, val_main_v21_apply, val_main_v20_apply, val_main_cst_2_apply]
  have e : idx_main_v21 (idx_main_v22 (ix3 b r j)) = ix2 b r := by idx2
  rw [e, Ideal.ofBits_def, Ideal.ofBits_zero_f32, zero_add]
  refine Finset.sum_congr rfl fun k _ => ?_
  have e' : idx_main_v20 (ix2 b r) k = ix3 b r k := by idx3
  rw [e', v19_at]

/-- Stage v23: the softmax of the scores over the key rows. -/
theorem v23_at (x0 : FVec Ideal S32x2048x512 .f32) (x1 x2 : FVec Ideal S512x512 .f32) (b : Fin 32) (r j : Fin 2048) :
    val_main_v23 (F := Ideal) x0 x1 x2 (ix3 b r j) = sm (score x0 x1 x2 b r) j := by
  rw [val_main_v23_apply, v19_at, v22_at]
  rfl

/-! ## The result -/

/-- The reference's last stage at (b, r, h) is `Spec.outR` of the four arguments. -/
theorem ref_apply (x0 : FVec Ideal S32x2048x512 .f32) (x1 x2 x3 : FVec Ideal S512x512 .f32) (b : Fin 32) (r : Fin 2048) (h : Fin 512) :
    val_main_v24 (F := Ideal) x0 x1 x2 x3 (ix3 b r h) = outR x0 x1 x2 x3 b r h := by
  rw [val_main_v24_apply]
  unfold outR
  refine Finset.sum_congr rfl fun k _ => ?_
  have el : lidx_main_v24 (ix3 b r h) k = ix3 b r k := by idx3
  have er : ridx_main_v24 (ix3 b r h) k = ix3 b k h := by idx3
  rw [el, er, v23_at, v2_at]
  rfl

end Cert.ReferenceIdeal.RefValue

end
-- ==== Proof.KernelPieces.lean ====
/-
  What the kernel body leaves, per control case and point by point.

  The grid is (batch b, query tile qi), 128 points t = 4·b + qi in row-major order. At the points with qi = 0
  (case A) the body first stores the two caches — logq = log_softmax(x_b · Wk) and v = x_b · Wv of the whole
  x_b block — and then computes the output tile from them; at the other points (case B) it reads the caches the
  point before left. The x block and the three weight blocks do not change inside a batch, so after every point
  the caches hold the two payloads of the CURRENT point's own blocks (`caches_eq`), and the output tile is one
  term of the point's blocks at every point (`tile_eq`).
-/
import proofs.«419489_j33964601377282_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile's rows inside the staged x block: 512 rows from row 512·qi. -/
abbrev qrect (i : grid0.Coords) : Rect S1x2048x512 :=
  Rect.unit (s := S1x2048x512) (k0_off1 i) S1x512x512.size (k0_off1_inb i)

/-! ## Case A: the caches are stored, then the tile is computed from them -/

/-- Case A leaves log_softmax(x_b · Wk) in the first cache. -/
theorem sout_A_0 (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .f32) (x2 : Vec F S512x512 .f32) (x3 : Vec F S512x512 .bf16) :
    sout0_A_0 c i arg2 harg2 arg3 harg3 arg4 harg4 arg5 harg5 arg6 harg6 arg7 harg7 arg8 harg8 hc0 x0 x1 x2 x3 = k0_pay3 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread, View.ld_unit_zero (S := S1x2048x512) hz3,
    View.ld_unit_zero (S := S512x512) hz2]

/-- Case A leaves x_b · Wv in the second cache. -/
theorem sout_A_1 (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .f32) (x2 : Vec F S512x512 .f32) (x3 : Vec F S512x512 .bf16) :
    sout0_A_1 c i arg2 harg2 arg3 harg3 arg4 harg4 arg5 harg5 arg6 harg6 arg7 harg7 arg8 harg8 hc0 x0 x1 x2 x3 = k0_pay4 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1x2048x512) hz3,
    View.ld_unit_zero (S := S512x512) hz2]

/-- Case A's output tile: the tile's term of the query rows, Wq, and the two caches it has just stored. -/
theorem out_A_4 (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .f32) (x2 : Vec F S512x512 .f32) (x3 : Vec F S512x512 .bf16) :
    out0_A_4 c i arg2 harg2 arg3 harg3 arg4 harg4 arg5 harg5 arg6 harg6 arg7 harg7 arg8 harg8 hc0 x0 x1 x2 x3
      = k0_pay1 (k0_pay5 (View.ld x0 (qrect i)) x1 (k0_pay3 x0 x2) (k0_pay4 x0 x3)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x2048x512) hz3, View.ld_unit_zero (S := S512x512) hz2,
    View.readCov_unit_zero (S := S2048x512) _ hz2]
  rfl

/-! ## Case B: the tile is computed from the caches the point before left -/

theorem out_B_4 (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : ¬cond0_0 i)
    (x0 : Vec F S1x2048x512 .f32) (x1 : Vec F S512x512 .f32) (x2 : Vec F S512x512 .f32) (x3 : Vec F S512x512 .bf16) (xs0 : Vec F S2048x512 .f32) (xs1 : Vec F S2048x512 .bf16) :
    out0_B_4 c i arg2 harg2 arg3 harg3 arg4 harg4 arg5 harg5 arg6 harg6 arg7 harg7 arg8 harg8 hc0 x0 x1 x2 x3 xs0 xs1
      = k0_pay1 (k0_pay5 (View.ld x0 (qrect i)) x1 xs0 xs1) := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero hz3]
  simp only [View.readAt_eq_ld, harg2.read_unread, harg3.read_unread, harg7.read_unread, harg8.read_unread,
    View.ld_unit_zero (S := S2048x512) hz2, View.ld_unit_zero (S := S512x512) hz2]
  rfl

/-! ## The point's blocks, named at their literal types -/

variable (m : (ℓ : Loc nD τ sig) → Buf (Elt F) ℓ)

/-- The staged x block, the three weight blocks at a point. -/
abbrev xblk (c : Dev nD) (t : Fin cfg0.N) : Vec F S1x2048x512 .f32 := iblk m c 0 t
abbrev wqblk (c : Dev nD) (t : Fin cfg0.N) : Vec F S512x512 .f32 := iblk m c 1 t
abbrev wkblk (c : Dev nD) (t : Fin cfg0.N) : Vec F S512x512 .f32 := iblk m c 2 t
abbrev wvblk (c : Dev nD) (t : Fin cfg0.N) : Vec F S512x512 .bf16 := iblk m c 3 t

/-- The index maps over the grid: x's block index is the batch t / 4, the weights' never moves. -/
theorem idx_in : ∀ t : Fin cfg0.N, win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Inside a batch the x block is the same block of the array. -/
theorem xblk_eq (c : Dev nD) (t t' : Fin cfg0.N) (h : t.val / 4 = t'.val / 4) : xblk m c t = xblk m c t' := by
  obtain ⟨e0, e1, e2, -⟩ := idx_in t
  obtain ⟨e0', e1', e2', -⟩ := idx_in t'
  funext y
  show V m c main_arg0 (((cfg0.win 0).blk t).view.emb y) = V m c main_arg0 (((cfg0.win 0).blk t').view.emb y)
  refine congrArg _ (funext fun a => Fin.ext ?_)
  match a with
  | ⟨0, _⟩ => show win0_0.index t (0 : Fin 3) * 1 + 1 * (y 0).val = win0_0.index t' (0 : Fin 3) * 1 + 1 * (y 0).val; omega
  | ⟨1, _⟩ => show win0_0.index t (1 : Fin 3) * 2048 + 1 * (y 1).val = win0_0.index t' (1 : Fin 3) * 2048 + 1 * (y 1).val; omega
  | ⟨2, _⟩ => show win0_0.index t (2 : Fin 3) * 512 + 1 * (y 2).val = win0_0.index t' (2 : Fin 3) * 512 + 1 * (y 2).val; omega

/-- The Wk and Wv blocks are the same at every point. -/
theorem wkblk_eq (c : Dev nD) (t t' : Fin cfg0.N) : wkblk m c t = wkblk m c t' := by
  obtain ⟨-, -, -, -, -, e0, e1, -⟩ := idx_in t
  obtain ⟨-, -, -, -, -, e0', e1', -⟩ := idx_in t'
  funext y
  show V m c main_arg2 (((cfg0.win 2).blk t).view.emb y) = V m c main_arg2 (((cfg0.win 2).blk t').view.emb y)
  refine congrArg _ (funext fun a => Fin.ext ?_)
  match a with
  | ⟨0, _⟩ => show win0_2.index t (0 : Fin 2) * 512 + 1 * (y 0).val = win0_2.index t' (0 : Fin 2) * 512 + 1 * (y 0).val; omega
  | ⟨1, _⟩ => show win0_2.index t (1 : Fin 2) * 512 + 1 * (y 1).val = win0_2.index t' (1 : Fin 2) * 512 + 1 * (y 1).val; omega

theorem wvblk_eq (c : Dev nD) (t t' : Fin cfg0.N) : wvblk m c t = wvblk m c t' := by
  obtain ⟨-, -, -, -, -, -, -, e0, e1⟩ := idx_in t
  obtain ⟨-, -, -, -, -, -, -, e0', e1'⟩ := idx_in t'
  funext y
  show V m c main_v0 (((cfg0.win 3).blk t).view.emb y) = V m c main_v0 (((cfg0.win 3).blk t').view.emb y)
  refine congrArg _ (funext fun a => Fin.ext ?_)
  match a with
  | ⟨0, _⟩ => show win0_3.index t (0 : Fin 2) * 512 + 1 * (y 0).val = win0_3.index t' (0 : Fin 2) * 512 + 1 * (y 0).val; omega
  | ⟨1, _⟩ => show win0_3.index t (1 : Fin 2) * 512 + 1 * (y 1).val = win0_3.index t' (1 : Fin 2) * 512 + 1 * (y 1).val; omega

/-! ## After every point the caches hold the payloads of that point's own blocks -/

/-- At a point that stores the caches they hold the payloads of the point's blocks. -/
theorem caches_A (c : Dev nD) (t : Fin cfg0.N) (h0 : t.val % 4 = 0) :
    (outsAt0 m c t.val t.isLt).2.1 = k0_pay3 (xblk m c t) (wkblk m c t)
    ∧ (outsAt0 m c t.val t.isLt).2.2 = k0_pay4 (xblk m c t) (wvblk m c t) := by
  rw [outsAt0_A m c t h0]
  dsimp only
  exact ⟨sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)⟩

theorem caches_eq (c : Dev nD) : ∀ (n : ℕ) (hn : n < cfg0.N),
    (outsAt0 m c n hn).2.1 = k0_pay3 (xblk m c ⟨n, hn⟩) (wkblk m c ⟨n, hn⟩)
    ∧ (outsAt0 m c n hn).2.2 = k0_pay4 (xblk m c ⟨n, hn⟩) (wvblk m c ⟨n, hn⟩)
  | 0, hn => caches_A m c ⟨0, hn⟩ rfl
  | n + 1, hn => by
    have hN : cfg0.N = 128 := N_0
    by_cases h0 : (n + 1) % 4 = 0
    · exact caches_A m c ⟨n + 1, hn⟩ h0
    · have ih := caches_eq c n (Nat.lt_of_succ_lt hn)
      have hx : xblk m c ⟨n, Nat.lt_of_succ_lt hn⟩ = xblk m c ⟨n + 1, hn⟩ :=
        xblk_eq m c _ _ (by show n / 4 = (n + 1) / 4; omega)
      rw [outsAt0_B m c ⟨n + 1, hn⟩ h0]
      dsimp only
      unfold sout0_B_0 sout0_B_1
      refine ⟨ih.1.trans ?_, ih.2.trans ?_⟩
      · rw [hx, wkblk_eq m c ⟨n, Nat.lt_of_succ_lt hn⟩ ⟨n + 1, hn⟩]
      · rw [hx, wvblk_eq m c ⟨n, Nat.lt_of_succ_lt hn⟩ ⟨n + 1, hn⟩]

/-! ## The output tile at every point -/

/-- At every point the output's staging buffer ends at the tile's term of the point's query rows, Wq, and the
    two cache payloads of the point's own x, Wk and Wv blocks. -/
theorem tile_eq (c : Dev nD) (t : Fin cfg0.N) :
    (outsAt0 m c t.val t.isLt).1
      = k0_pay1 (k0_pay5 (View.ld (xblk m c t) (qrect (grid0.coords t))) (wqblk m c t)
          (k0_pay3 (xblk m c t) (wkblk m c t)) (k0_pay4 (xblk m c t) (wvblk m c t))) := by
  have hN : cfg0.N = 128 := N_0
  by_cases h0 : t.val % 4 = 0
  · rw [outsAt0_A m c t h0]
    dsimp only
    exact out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  · have ht : 0 < t.val := by omega
    have hlt : t.val - 1 < cfg0.N := Nat.lt_of_le_of_lt (Nat.sub_le _ _) t.isLt
    have ih := caches_eq m c (t.val - 1) hlt
    have hx : xblk m c ⟨t.val - 1, hlt⟩ = xblk m c t := xblk_eq m c _ _ (by show (t.val - 1) / 4 = t.val / 4; omega)
    rw [outsAt0_B m c t h0]
    dsimp only
    refine (out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) hlt).2.1 (outsAt0 m c (t.val - 1) hlt).2.2).trans ?_
    rw [ih.1, ih.2, hx, wkblk_eq m c ⟨t.val - 1, hlt⟩ t, wvblk_eq m c ⟨t.val - 1, hlt⟩ t]

end Cert.KernelIdeal.Pieces

end
-- ==== Proof.KernelPay.lean ====
/-
  The kernel body's arithmetic, read at one index of each stored value (at the extended reals).

  Each stored value is a chain of vector operations. Read at one index, a leading unit axis added or
  dropped by a cast is invisible, a matrix product into a zero accumulator is the sum over the
  contracted coordinate, a row maximum is the fold of `max` from −∞, a keep-dimensions column
  broadcast back over its row reads the column at that row, and the remaining operations act
  elementwise. Chained, the rows of a [a, b] value pass through `Spec.sm` (softmax) or `Spec.lsm`
  (log-softmax), and the four stored values are the formulas stated at the end.
-/
import proofs.«419489_j33964601377282_3_alg».proof.Proof.Gen.KernelIdeal.Skeleton
import proofs.«419489_j33964601377282_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec
open scoped BigOperators

/-! ## Keep-dimensions columns, and the index a row reduction inserts -/

section Layout
variable {α : Type}

/-- An `[a]` vector cast to a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Reducing the second axis of `[a, b]`: the source index over row `r` with coordinate `k` inserted is `(r, k)`. -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-! ## The rows of an `[a, b]` value: maximum, shifted exponentials, softmax and log-softmax -/

section Rows
variable {a b : ℕ} (x : FVec Ideal ⟨2, ![a, b]⟩ .f32)
  (hr : (⟨2, ![a, b]⟩ : Shape).Reduces [1] ⟨1, ![a]⟩)
  (hφ : FKind.Formats .f32) (hmx : (0xFF800000#32 : BitVec (FTy.bits .f32)) = FKind.maximumf.neutral .f32 hφ)
  (hφ' : FKind.Formats .f32) (had : (0x00000000#32 : BitVec (FTy.bits .f32)) = FKind.add.neutral .f32 hφ')
  (hsc : (⟨1, ![a]⟩ : Shape).ShapeCasts ⟨2, ![a, 1]⟩)
  (hbc : (⟨2, ![a, 1]⟩ : Shape).Broadcasts ⟨2, ![a, b]⟩)

/-- The lane maximum of row `r` is the fold of `max` from −∞ over the row. -/
theorem rowMax_apply (r : Fin a) :
    multiReduction .maximumf [1] ⟨1, ![a]⟩ x 0xFF800000#32 hr hφ hmx (ix1 r)
      = (Finset.univ : Finset (Fin b)).fold max negInf (fun k => x (ix2 r k)) := by
  refine (Ideal.multiReduction_maximumf_single x 0xFF800000#32 hr hφ hmx (ix1 r)).trans ?_
  have e : (x ∘ hr.lift (ix1 r) : Fin b → EReal) = fun k => x (ix2 r k) :=
    funext fun k => congrArg x (lift_row hr r k)
  exact congrArg (fun f : Fin b → EReal => (Finset.univ : Finset (Fin b)).fold max negInf f) e

/-- The row maximum, once more against −∞, as a column broadcast back over the row. -/
def rowMaxB : FVec Ideal ⟨2, ![a, b]⟩ .f32 :=
  broadcastTo ⟨2, ![a, b]⟩ (shapeCast ⟨2, ![a, 1]⟩
    (maximumf (broadcast ⟨1, ![a]⟩ (Scalar.ofBits (F := Ideal) .f32 0xFF800000#32))
      (multiReduction .maximumf [1] ⟨1, ![a]⟩ x 0xFF800000#32 hr hφ hmx)) hsc) hbc

theorem rowMaxB_apply (r : Fin a) (c : Fin b) :
    rowMaxB x hr hφ hmx hsc hbc (ix2 r c) = rmax (fun k : Fin b => x (ix2 r k)) :=
  (broadcastTo_a1_ab_apply _ hbc r c).trans ((shapeCast_a_a1_apply _ hsc r 0).trans
    (congrArg (max negInf) (rowMax_apply x hr hφ hmx r)))

/-- `x − rowmax(x)`. -/
def shifted : FVec Ideal ⟨2, ![a, b]⟩ .f32 := subf x (rowMaxB x hr hφ hmx hsc hbc)

theorem shifted_apply (r : Fin a) (c : Fin b) :
    shifted x hr hφ hmx hsc hbc (ix2 r c) = x (ix2 r c) - rmax (fun k : Fin b => x (ix2 r k)) :=
  congrArg (fun m : EReal => x (ix2 r c) - m) (rowMaxB_apply x hr hφ hmx hsc hbc r c)

/-- The lane sum of the shifted exponentials of each row. -/
def rowSumExp : FVec Ideal ⟨1, ![a]⟩ .f32 :=
  multiReduction .add [1] ⟨1, ![a]⟩ (exp (shifted x hr hφ hmx hsc hbc)) 0x00000000#32 hr hφ' had

theorem rowSumExp_apply (r : Fin a) :
    rowSumExp x hr hφ hmx hφ' had hsc hbc (ix1 r)
      = ∑ k : Fin b, Ideal.exp (x (ix2 r k) - rmax (fun k' : Fin b => x (ix2 r k'))) := by
  refine (Ideal.multiReduction_add_single (exp (shifted x hr hφ hmx hsc hbc)) 0x00000000#32 hr hφ' had (ix1 r)).trans ?_
  refine Finset.sum_congr rfl fun k _ => ?_
  refine (congrArg (exp (shifted x hr hφ hmx hsc hbc)) (lift_row hr r k)).trans ?_
  exact congrArg Ideal.exp (shifted_apply x hr hφ hmx hsc hbc r k)

/-- That sum as a column broadcast back over the row. -/
def rowSumExpB : FVec Ideal ⟨2, ![a, b]⟩ .f32 :=
  broadcastTo ⟨2, ![a, b]⟩ (shapeCast ⟨2, ![a, 1]⟩ (rowSumExp x hr hφ hmx hφ' had hsc hbc) hsc) hbc

theorem rowSumExpB_apply (r : Fin a) (c : Fin b) :
    rowSumExpB x hr hφ hmx hφ' had hsc hbc (ix2 r c)
      = ∑ k : Fin b, Ideal.exp (x (ix2 r k) - rmax (fun k' : Fin b => x (ix2 r k'))) :=
  (broadcastTo_a1_ab_apply _ hbc r c).trans ((shapeCast_a_a1_apply _ hsc r 0).trans
    (rowSumExp_apply x hr hφ hmx hφ' had hsc hbc r))

/-- Softmax of each row, as the kernel computes it. -/
def smRows : FVec Ideal ⟨2, ![a, b]⟩ .f32 :=
  divf (exp (shifted x hr hφ hmx hsc hbc)) (rowSumExpB x hr hφ hmx hφ' had hsc hbc)

theorem smRows_apply (r : Fin a) (c : Fin b) :
    smRows x hr hφ hmx hφ' had hsc hbc (ix2 r c) = sm (fun k : Fin b => x (ix2 r k)) c :=
  congrArg₂ Ideal.div (congrArg Ideal.exp (shifted_apply x hr hφ hmx hsc hbc r c))
    (rowSumExpB_apply x hr hφ hmx hφ' had hsc hbc r c)

/-- The logarithm of that sum, taken on the column and then broadcast back over the row. -/
def rowLogSumExpB : FVec Ideal ⟨2, ![a, b]⟩ .f32 :=
  broadcastTo ⟨2, ![a, b]⟩ (log (shapeCast ⟨2, ![a, 1]⟩ (rowSumExp x hr hφ hmx hφ' had hsc hbc) hsc)) hbc

theorem rowLogSumExpB_apply (r : Fin a) (c : Fin b) :
    rowLogSumExpB x hr hφ hmx hφ' had hsc hbc (ix2 r c)
      = Ideal.log (∑ k : Fin b, Ideal.exp (x (ix2 r k) - rmax (fun k' : Fin b => x (ix2 r k')))) :=
  (broadcastTo_a1_ab_apply _ hbc r c).trans (congrArg Ideal.log ((shapeCast_a_a1_apply _ hsc r 0).trans
    (rowSumExp_apply x hr hφ hmx hφ' had hsc hbc r)))

/-- Log-softmax of each row, as the kernel computes it. -/
def lsmRows : FVec Ideal ⟨2, ![a, b]⟩ .f32 :=
  subf (shifted x hr hφ hmx hsc hbc) (rowLogSumExpB x hr hφ hmx hφ' had hsc hbc)

theorem lsmRows_apply (r : Fin a) (c : Fin b) :
    lsmRows x hr hφ hmx hφ' had hsc hbc (ix2 r c) = lsm (fun k : Fin b => x (ix2 r k)) c :=
  congrArg₂ (fun u v : EReal => u - v) (shifted_apply x hr hφ hmx hsc hbc r c)
    (rowLogSumExpB_apply x hr hφ hmx hφ' had hsc hbc r c)

end Rows

/-! ## A matrix product into a zero accumulator, read at an index -/

section Matmul
variable {m k n : ℕ} {φ₁ φ₂ : FTy}

/-- The left operand's second axis contracted with the right operand's first: entry `(p, c)` is
    `∑ d, lhs (p, d) * rhs (d, c)`. The four hypotheses say which coordinate each operand axis reads. -/
theorem matmul_nn_apply (D : DotDims ⟨2, ![m, k]⟩ ⟨2, ![k, n]⟩ ⟨2, ![m, n]⟩) (hr : D.contr.rank = 1)
    (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (q ⟨0, by omega⟩).val)
    (r1 : ∀ (i : (⟨2, ![m, n]⟩ : Shape).Idx) (q : D.contr.Idx), (D.rhsIdx i q 1).val = (i 1).val)
    (prec : Option ContractPrecision) (lhs : FVec Ideal ⟨2, ![m, k]⟩ φ₁) (rhs : FVec Ideal ⟨2, ![k, n]⟩ φ₂)
    (p : Fin m) (c : Fin n) :
    matmul D prec lhs rhs (constant (F := Ideal) ⟨2, ![m, n]⟩ .f32 0x00000000#32) (ix2 p c)
      = ∑ d : Fin k, lhs (ix2 p d) * rhs (ix2 d c) := by
  refine (Ideal.matmul_constant_zero_apply D prec lhs rhs (ix2 p c)).trans ?_
  rw [← Equiv.sum_comp (contrEquiv1 D k hr hs).symm]
  refine Finset.sum_congr rfl fun d _ => ?_
  have hk := contrEquiv1_symm_val D k hr hs d
  have el : D.lhsIdx (ix2 p c) ((contrEquiv1 D k hr hs).symm d) = ix2 p d := funext fun a => Fin.ext (by
    match a with
    | ⟨0, _⟩ => exact l0 _ _
    | ⟨1, _⟩ => exact (l1 _ _).trans hk)
  have er : D.rhsIdx (ix2 p c) ((contrEquiv1 D k hr hs).symm d) = ix2 d c := funext fun a => Fin.ext (by
    match a with
    | ⟨0, _⟩ => exact (r0 _ _).trans hk
    | ⟨1, _⟩ => exact r1 _ _)
  rw [el, er]

/-- The LAST axis of both operands contracted: entry `(p, c)` is `∑ d, lhs (p, d) * rhs (c, d)`. -/
theorem matmul_nt_apply (D : DotDims ⟨2, ![m, k]⟩ ⟨2, ![n, k]⟩ ⟨2, ![m, n]⟩) (hr : D.contr.rank = 1)
    (hs : D.contr.size ⟨0, by omega⟩ = k)
    (l0 : ∀ (i : (⟨2, ![m, n]⟩ : Shape).Idx) (q : D.contr.Idx), (D.lhsIdx i q 0).val = (i 0).val)
    (l1 : ∀ (i : (⟨2, ![m, n]⟩ : Shape).Idx) (q : D.contr.Idx), (D.lhsIdx i q 1).val = (q ⟨0, by omega⟩).val)
    (r0 : ∀ (i : (⟨2, ![m, n]⟩ : Shape).Idx) (q : D.contr.Idx), (D.rhsIdx i q 0).val = (i 1).val)
    (r1 : ∀ (i : (⟨2, ![m, n]⟩ : Shape).Idx) (q : D.contr.Idx), (D.rhsIdx i q 1).val = (q ⟨0, by omega⟩).val)
    (prec : Option ContractPrecision) (lhs : FVec Ideal ⟨2, ![m, k]⟩ φ₁) (rhs : FVec Ideal ⟨2, ![n, k]⟩ φ₂)
    (p : Fin m) (c : Fin n) :
    matmul D prec lhs rhs (constant (F := Ideal) ⟨2, ![m, n]⟩ .f32 0x00000000#32) (ix2 p c)
      = ∑ d : Fin k, lhs (ix2 p d) * rhs (ix2 c d) := by
  refine (Ideal.matmul_constant_zero_apply D prec lhs rhs (ix2 p c)).trans ?_
  rw [← Equiv.sum_comp (contrEquiv1 D k hr hs).symm]
  refine Finset.sum_congr rfl fun d _ => ?_
  have hk := contrEquiv1_symm_val D k hr hs d
  have el : D.lhsIdx (ix2 p c) ((contrEquiv1 D k hr hs).symm d) = ix2 p d := funext fun a => Fin.ext (by
    match a with
    | ⟨0, _⟩ => exact l0 _ _
    | ⟨1, _⟩ => exact (l1 _ _).trans hk)
  have er : D.rhsIdx (ix2 p c) ((contrEquiv1 D k hr hs).symm d) = ix2 c d := funext fun a => Fin.ext (by
    match a with
    | ⟨0, _⟩ => exact r0 _ _
    | ⟨1, _⟩ => exact (r1 _ _).trans hk)
  rw [el, er]

end Matmul

/-! ### The kernel's four products: which coordinate each kept operand axis reads -/

theorem lhs_xw_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem rhs_xw_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- A [2048, 512] block times a [512, 512] weight. -/
theorem matmul_xw_apply {φ₁ φ₂ : FTy} (prec : Option ContractPrecision) (lhs : FVec Ideal S2048x512 φ₁)
    (rhs : FVec Ideal S512x512 φ₂) (p : Fin 2048) (c : Fin 512) :
    matmul dot_S2048x512_S512x512_S2048x512_1_0_0_1_n_n prec lhs rhs (constant (F := Ideal) S2048x512 .f32 0x00000000#32) (ix2 p c)
      = ∑ d : Fin 512, lhs (ix2 p d) * rhs (ix2 d c) :=
  matmul_nn_apply dot_S2048x512_S512x512_S2048x512_1_0_0_1_n_n rfl rfl lhs_xw_0
    (fun i q => dot_S2048x512_S512x512_S2048x512_1_0_0_1_n_n.lhsIdx_val_of_single rfl i q)
    (fun i q => dot_S2048x512_S512x512_S2048x512_1_0_0_1_n_n.rhsIdx_val_of_single rfl i q)
    rhs_xw_1 prec lhs rhs p c

theorem lhs_qw_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem rhs_qw_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A [512, 512] query tile times a [512, 512] weight. -/
theorem matmul_qw_apply {φ₁ φ₂ : FTy} (prec : Option ContractPrecision) (lhs : FVec Ideal S512x512 φ₁)
    (rhs : FVec Ideal S512x512 φ₂) (p : Fin 512) (c : Fin 512) :
    matmul dot_S512x512_S512x512_S512x512_1_0_0_1_n_n prec lhs rhs (constant (F := Ideal) S512x512 .f32 0x00000000#32) (ix2 p c)
      = ∑ d : Fin 512, lhs (ix2 p d) * rhs (ix2 d c) :=
  matmul_nn_apply dot_S512x512_S512x512_S512x512_1_0_0_1_n_n rfl rfl lhs_qw_0
    (fun i q => dot_S512x512_S512x512_S512x512_1_0_0_1_n_n.lhsIdx_val_of_single rfl i q)
    (fun i q => dot_S512x512_S512x512_S512x512_1_0_0_1_n_n.rhsIdx_val_of_single rfl i q)
    rhs_qw_1 prec lhs rhs p c

theorem lhs_pk_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem rhs_pk_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl

/-- A [512, 512] tile against the rows of a [2048, 512] value: both last axes contracted. -/
theorem matmul_pk_apply {φ₁ φ₂ : FTy} (prec : Option ContractPrecision) (lhs : FVec Ideal S512x512 φ₁)
    (rhs : FVec Ideal S2048x512 φ₂) (p : Fin 512) (c : Fin 2048) :
    matmul dot_S512x512_S2048x512_S512x2048_1_1_0_0_n_n prec lhs rhs (constant (F := Ideal) S512x2048 .f32 0x00000000#32) (ix2 p c)
      = ∑ d : Fin 512, lhs (ix2 p d) * rhs (ix2 c d) :=
  matmul_nt_apply dot_S512x512_S2048x512_S512x2048_1_1_0_0_n_n rfl rfl lhs_pk_0
    (fun i q => dot_S512x512_S2048x512_S512x2048_1_1_0_0_n_n.lhsIdx_val_of_single rfl i q)
    rhs_pk_0
    (fun i q => dot_S512x512_S2048x512_S512x2048_1_1_0_0_n_n.rhsIdx_val_of_single rfl i q)
    prec lhs rhs p c

theorem lhs_av_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem rhs_av_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- A [512, 2048] weight tile times a [2048, 512] value. -/
theorem matmul_av_apply {φ₁ φ₂ : FTy} (prec : Option ContractPrecision) (lhs : FVec Ideal S512x2048 φ₁)
    (rhs : FVec Ideal S2048x512 φ₂) (p : Fin 512) (c : Fin 512) :
    matmul dot_S512x2048_S2048x512_S512x512_1_0_0_1_n_n prec lhs rhs (constant (F := Ideal) S512x512 .f32 0x00000000#32) (ix2 p c)
      = ∑ d : Fin 2048, lhs (ix2 p d) * rhs (ix2 d c) :=
  matmul_nn_apply dot_S512x2048_S2048x512_S512x512_1_0_0_1_n_n rfl rfl lhs_av_0
    (fun i q => dot_S512x2048_S2048x512_S512x512_1_0_0_1_n_n.lhsIdx_val_of_single rfl i q)
    (fun i q => dot_S512x2048_S2048x512_S512x512_1_0_0_1_n_n.rhsIdx_val_of_single rfl i q)
    rhs_av_1 prec lhs rhs p c

/-- The stored output tile is the [512, 512] result under a leading unit axis. -/
theorem pay1_apply (v36 : FVec Ideal S512x512 .f32) (r h : Fin 512) :
    k0_pay1 (F := Ideal) v36 (ix3 (0 : Fin 1) r h) = v36 (ix2 r h) := by
  exact shapeCast_ab_1ab_apply v36 Facts₀.shapeCasts_S512x512_S1x512x512 (0 : Fin 1) r h

/-- The cached key side: row j of log_softmax(x_b · Wk). -/
theorem pay3_apply (v40 : FVec Ideal S1x2048x512 .f32) (v42 : FVec Ideal S512x512 .f32) (j : Fin 2048) (h : Fin 512) :
    k0_pay3 (F := Ideal) v40 v42 (ix2 j h)
      = lsm (fun h' : Fin 512 => ∑ d : Fin 512, v40 (ix3 (0 : Fin 1) j d) * v42 (ix2 d h')) h := by
  have e : k0_pay3 (F := Ideal) v40 v42
      = shapeCast S2048x512
          (lsmRows (matmul dot_S2048x512_S512x512_S2048x512_1_0_0_1_n_n (some .fp32) (k0_pay2 (F := Ideal) v40) v42
              (constant (F := Ideal) S2048x512 .f32 0x00000000#32))
            Facts₀.reduces_S2048x512_S2048 (.inl rfl) rfl (.inl rfl) rfl
            Facts₀.shapeCasts_S2048_S2048x1 Facts₀.broadcasts_S2048x1_S2048x512)
          Facts₀.shapeCasts_S2048x512_S2048x512 := rfl
  refine (congrFun e (ix2 j h)).trans ?_
  refine (congrFun (shapeCast_self _ Facts₀.shapeCasts_S2048x512_S2048x512) (ix2 j h)).trans ?_
  refine (lsmRows_apply _ _ _ _ _ _ _ _ j h).trans ?_
  refine congrArg (fun f : Fin 512 → EReal => lsm f h) (funext fun h' => ?_)
  refine (matmul_xw_apply (some .fp32) (k0_pay2 (F := Ideal) v40) v42 j h').trans ?_
  exact Finset.sum_congr rfl fun d _ =>
    congrArg (fun u : EReal => u * v42 (ix2 d h')) (shapeCast_1ab_ab_apply v40 Facts₀.shapeCasts_S1x2048x512_S2048x512 j d)

/-- The cached value side: row j of x_b · Wv. -/
theorem pay4_apply (v40 : FVec Ideal S1x2048x512 .f32) (v60 : FVec Ideal S512x512 .bf16) (j : Fin 2048) (h : Fin 512) :
    k0_pay4 (F := Ideal) v40 v60 (ix2 j h) = ∑ d : Fin 512, v40 (ix3 (0 : Fin 1) j d) * v60 (ix2 d h) := by
  have e : k0_pay4 (F := Ideal) v40 v60
      = shapeCast S2048x512
          (truncf .bf16
            (matmul dot_S2048x512_S512x512_S2048x512_1_0_0_1_n_n none
              (truncf .bf16 (k0_pay2 (F := Ideal) v40) Facts₀.bitsLt_bf16_f32)
              (shapeCast S512x512 v60 Facts₀.shapeCasts_S512x512_S512x512)
              (constant (F := Ideal) S2048x512 .f32 0x00000000#32))
            Facts₀.bitsLt_bf16_f32)
          Facts₀.shapeCasts_S2048x512_S2048x512 := rfl
  refine (congrFun e (ix2 j h)).trans ?_
  refine (congrFun (shapeCast_self _ Facts₀.shapeCasts_S2048x512_S2048x512) (ix2 j h)).trans ?_
  refine (matmul_xw_apply none (truncf .bf16 (k0_pay2 (F := Ideal) v40) Facts₀.bitsLt_bf16_f32)
    (shapeCast S512x512 v60 Facts₀.shapeCasts_S512x512_S512x512) j h).trans ?_
  refine Finset.sum_congr rfl fun d _ => ?_
  exact congrArg₂ (fun u v : EReal => u * v)
    (shapeCast_1ab_ab_apply v40 Facts₀.shapeCasts_S1x2048x512_S2048x512 j d)
    (congrFun (shapeCast_self v60 Facts₀.shapeCasts_S512x512_S512x512) (ix2 d h))

/-- One query tile: softmax over the keys of (softmax(x_tile · Wq) · logqᵀ), times v. -/
theorem pay5_apply (v6 : FVec Ideal S1x512x512 .f32) (v8 : FVec Ideal S512x512 .f32) (v21 : FVec Ideal S2048x512 .f32)
    (v35 : FVec Ideal S2048x512 .bf16) (r h : Fin 512) :
    k0_pay5 (F := Ideal) v6 v8 v21 v35 (ix2 r h)
      = ∑ j : Fin 2048, sm (fun j' : Fin 2048 => ∑ h' : Fin 512,
            sm (fun h'' : Fin 512 => ∑ d : Fin 512, v6 (ix3 (0 : Fin 1) r d) * v8 (ix2 d h'')) h' * v21 (ix2 j' h')) j
          * v35 (ix2 j h) := by
  have e : k0_pay5 (F := Ideal) v6 v8 v21 v35
      = matmul dot_S512x2048_S2048x512_S512x512_1_0_0_1_n_n none
          (truncf .bf16
            (smRows
              (matmul dot_S512x512_S2048x512_S512x2048_1_1_0_0_n_n (some .fp32)
                (smRows
                  (matmul dot_S512x512_S512x512_S512x512_1_0_0_1_n_n (some .fp32)
                    (shapeCast S512x512 v6 Facts₀.shapeCasts_S1x512x512_S512x512) v8
                    (constant (F := Ideal) S512x512 .f32 0x00000000#32))
                  Facts₀.reduces_S512x512_S512 (.inl rfl) rfl (.inl rfl) rfl
                  Facts₀.shapeCasts_S512_S512x1 Facts₀.broadcasts_S512x1_S512x512)
                v21 (constant (F := Ideal) S512x2048 .f32 0x00000000#32))
              Facts₀.reduces_S512x2048_S512 (.inl rfl) rfl (.inl rfl) rfl
              Facts₀.shapeCasts_S512_S512x1 Facts₀.broadcasts_S512x1_S512x2048)
            Facts₀.bitsLt_bf16_f32)
          v35 (constant (F := Ideal) S512x512 .f32 0x00000000#32) := rfl
  refine (congrFun e (ix2 r h)).trans ?_
  refine (matmul_av_apply none (truncf .bf16 _ Facts₀.bitsLt_bf16_f32) v35 r h).trans ?_
  refine Finset.sum_congr rfl fun j _ => congrArg (fun u : EReal => u * v35 (ix2 j h)) ?_
  refine (truncf_apply _ Facts₀.bitsLt_bf16_f32 (ix2 r j)).trans ?_
  refine (smRows_apply _ _ _ _ _ _ _ _ r j).trans ?_
  refine congrArg (fun f : Fin 2048 → EReal => sm f j) (funext fun j' => ?_)
  refine (matmul_pk_apply (some .fp32) _ v21 r j').trans ?_
  refine Finset.sum_congr rfl fun h' _ => congrArg (fun u : EReal => u * v21 (ix2 j' h')) ?_
  refine (smRows_apply _ _ _ _ _ _ _ _ r h').trans ?_
  refine congrArg (fun f : Fin 512 → EReal => sm f h') (funext fun h'' => ?_)
  refine (matmul_qw_apply (some .fp32) (shapeCast S512x512 v6 Facts₀.shapeCasts_S1x512x512_S512x512) v8 r h'').trans ?_
  exact Finset.sum_congr rfl fun d _ =>
    congrArg (fun u : EReal => u * v8 (ix2 d h'')) (shapeCast_1ab_ab_apply v6 Facts₀.shapeCasts_S1x512x512_S512x512 r d)

end Cert.KernelIdeal.Pay

end
-- ==== Proof.KernelValue.lean ====
/-
  The kernel's result array, index by index: `Spec.outK` of the four argument arrays.

  Point t = 4·b + qi of the grid writes back the tile rows 512·qi … 512·qi + 511 of batch b. By `Pieces.tile_eq` the
  tile is one term of the point's blocks; read at (r, h) through the payload lemmas it is
    Σ_j softmax_j( Σ_h' softmax(x[b, 512·qi + r] · Wq)[h'] · log_softmax(x[b, j] · Wk)[h'] ) · (x[b, j] · Wv)[h],
  which is `outK` at (b, 512·qi + r, h) — the x block is batch b of x, the weight blocks the whole matrices, and the
  value weights reach the kernel through a narrowing that is the identity over the extended reals. The 128 tiles
  cover the array, so the array after the run is `outK` everywhere.
-/
import proofs.«419489_j33964601377282_3_alg».proof.Proof.KernelPieces
import proofs.«419489_j33964601377282_3_alg».proof.Proof.KernelPay
import proofs.«419489_j33964601377282_3_alg».proof.Proof.Gen.KernelIdeal.Value
import proofs.«419489_j33964601377282_3_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Cert.KernelIdeal.Pieces Cert.KernelIdeal.Pay
open Cert.Spec Idealize.ShloMosaic.ValueIdx
open scoped BigOperators

variable (m : (ℓ : Loc nD τ sig) → Buf (Elt Ideal) ℓ) (ρ : Dev nD → PrngReg)

/-- The result array: `outK` of the argument arrays, by coordinates. -/
def G (c : Dev nD) : S32x2048x512.Idx → EReal := fun i =>
  outK (m ((c : Thread nD τ).loc main_arg0)) (m ((c : Thread nD τ).loc main_arg1)) (m ((c : Thread nD τ).loc main_arg2)) (m ((c : Thread nD τ).loc main_arg3)) (i 0) (i 1) (i 2)

/-! ## The blocks read at an index -/

/-- The grid's second coordinate is the query tile t mod 4. -/
theorem coord1 : ∀ t : Fin cfg0.N, ((grid0.coords t) 1).val = t.val % 4 :=
  (by decide +kernel : ∀ t : Fin grid0.N, ((grid0.coords t) 1).val = t.val % 4)

/-- The x block at point t is batch t / 4 of x. -/
theorem xblk_apply (c : Dev nD) (t : Fin cfg0.N) (b : Fin 32) (hb : b.val = t.val / 4) (j : Fin 2048) (d : Fin 512) :
    xblk m c t (ix3 (0 : Fin 1) j d) = m ((c : Thread nD τ).loc main_arg0) (ix3 b j d) := by
  obtain ⟨e0, e1, e2, -⟩ := idx_in t
  refine Eq.trans ?_ (congrFun (V_main_arg0 m c) _)
  show V m c main_arg0 (((cfg0.win 0).blk t).view.emb (ix3 (0 : Fin 1) j d)) = V m c main_arg0 (ix3 b j d)
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * j.val = j.val; omega
  | ⟨2, _⟩ => show win0_0.index t (2 : Fin 3) * 512 + 1 * d.val = d.val; omega

/-- The query rows the body loads at point t are rows 512·(t mod 4) + r of batch t / 4. -/
theorem qrows_apply (c : Dev nD) (t : Fin cfg0.N) (b : Fin 32) (hb : b.val = t.val / 4) (r' : Fin 2048) (r : Fin 512)
    (hr : r'.val = 512 * (t.val % 4) + r.val) (d : Fin 512) :
    View.ld (xblk m c t) (qrect (grid0.coords t)) (ix3 (0 : Fin 1) r d) = m ((c : Thread nD τ).loc main_arg0) (ix3 b r' d) := by
  refine Eq.trans ?_ (xblk_apply m c t b hb r' d)
  show xblk m c t ((qrect (grid0.coords t)).idx (ix3 (0 : Fin 1) r d)) = _
  have hc := coord1 t
  refine congrArg _ (funext fun a => Fin.ext ?_)
  match a with
  | ⟨0, _⟩ => show k0_off1 (grid0.coords t) 0 + 1 * 0 = 0; rw [k0_off1_eq]; rfl
  | ⟨1, _⟩ => show k0_off1 (grid0.coords t) 1 + 1 * r.val = r'.val; rw [k0_off1_eq]; show 512 * ((grid0.coords t) 1).val + 1 * r.val = r'.val; omega
  | ⟨2, _⟩ => show k0_off1 (grid0.coords t) 2 + 1 * d.val = d.val; rw [k0_off1_eq]; show 0 + 1 * d.val = d.val; omega

/-- The Wq and Wk blocks are the whole matrices. -/
theorem wqblk_apply (c : Dev nD) (t : Fin cfg0.N) (d h : Fin 512) :
    wqblk m c t (ix2 d h) = m ((c : Thread nD τ).loc main_arg1) (ix2 d h) := by
  obtain ⟨-, -, -, e0, e1, -⟩ := idx_in t
  refine Eq.trans ?_ (congrFun (V_main_arg1 m c) _)
  show V m c main_arg1 (((cfg0.win 1).blk t).view.emb (ix2 d h)) = V m c main_arg1 (ix2 d h)
  refine congrArg _ (funext fun a => Fin.ext ?_)
  match a with
  | ⟨0, _⟩ => show win0_1.index t (0 : Fin 2) * 512 + 1 * d.val = d.val; omega
  | ⟨1, _⟩ => show win0_1.index t (1 : Fin 2) * 512 + 1 * h.val = h.val; omega

theorem wkblk_apply (c : Dev nD) (t : Fin cfg0.N) (d h : Fin 512) :
    wkblk m c t (ix2 d h) = m ((c : Thread nD τ).loc main_arg2) (ix2 d h) := by
  obtain ⟨-, -, -, -, -, e0, e1, -⟩ := idx_in t
  refine Eq.trans ?_ (congrFun (V_main_arg2 m c) _)
  show V m c main_arg2 (((cfg0.win 2).blk t).view.emb (ix2 d h)) = V m c main_arg2 (ix2 d h)
  refine congrArg _ (funext fun a => Fin.ext ?_)
  match a with
  | ⟨0, _⟩ => show win0_2.index t (0 : Fin 2) * 512 + 1 * d.val = d.val; omega
  | ⟨1, _⟩ => show win0_2.index t (1 : Fin 2) * 512 + 1 * h.val = h.val; omega

/-- The value weights the region finds are the narrowed Wv: over the extended reals, Wv itself. -/
theorem V_main_v0 (c : Dev nD) :
    @Eq (FVec Ideal S512x512 .bf16) (V m c main_v0) (truncf (F := Ideal) .bf16 (m ((c : Thread nD τ).loc main_arg3)) bitsLt_bf16_f32) := by
  dsimp only [Gen.V, Gen.hostOps0]; after_results

theorem wvblk_apply (c : Dev nD) (t : Fin cfg0.N) (d h : Fin 512) :
    wvblk m c t (ix2 d h) = m ((c : Thread nD τ).loc main_arg3) (ix2 d h) := by
  obtain ⟨-, -, -, -, -, -, -, e0, e1⟩ := idx_in t
  refine Eq.trans ?_ ((congrFun (V_main_v0 m c) (ix2 d h)).trans
    (truncf_apply (φ := .f32) (ψ := .bf16) (m ((c : Thread nD τ).loc main_arg3)) bitsLt_bf16_f32 (ix2 d h)))
  show V m c main_v0 (((cfg0.win 3).blk t).view.emb (ix2 d h)) = V m c main_v0 (ix2 d h)
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * h.val = h.val; omega

/-! ## The tile at an index -/

/-- The tile point t leaves, at (r, h), is `outK` at (t / 4, 512·(t mod 4) + r, h). -/
theorem tile_apply (c : Dev nD) (t : Fin cfg0.N) (b : Fin 32) (hb : b.val = t.val / 4) (r' : Fin 2048) (r : Fin 512)
    (hr : r'.val = 512 * (t.val % 4) + r.val) (h : Fin 512) :
    (outsAt0 m c t.val t.isLt).1 (ix3 (0 : Fin 1) r h)
      = outK (m ((c : Thread nD τ).loc main_arg0)) (m ((c : Thread nD τ).loc main_arg1)) (m ((c : Thread nD τ).loc main_arg2)) (m ((c : Thread nD τ).loc main_arg3)) b r' h := by
  rw [tile_eq m c t]
  refine (pay1_apply _ r h).trans ?_
  refine (pay5_apply _ _ _ _ r h).trans ?_
  unfold outK
  refine Finset.sum_congr rfl fun j _ => ?_
  have hv : k0_pay4 (F := Ideal) (xblk m c t) (wvblk m c t) (ix2 j h)
      = proj (m ((c : Thread nD τ).loc main_arg0)) (m ((c : Thread nD τ).loc main_arg3)) b j h := by
    refine (pay4_apply _ _ j h).trans ?_
    unfold proj
    exact Finset.sum_congr rfl fun d _ => by rw [xblk_apply m c t b hb j d, wvblk_apply m c t d h]
  have hs : (fun j' : Fin 2048 => ∑ h' : Fin 512,
        sm (fun h'' : Fin 512 => ∑ d : Fin 512, View.ld (xblk m c t) (qrect (grid0.coords t)) (ix3 (0 : Fin 1) r d) * wqblk m c t (ix2 d h'')) h'
          * k0_pay3 (F := Ideal) (xblk m c t) (wkblk m c t) (ix2 j' h'))
      = fun j' : Fin 2048 => ∑ h' : Fin 512,
          sm (proj (m ((c : Thread nD τ).loc main_arg0)) (m ((c : Thread nD τ).loc main_arg1)) b r') h' * lsm (proj (m ((c : Thread nD τ).loc main_arg0)) (m ((c : Thread nD τ).loc main_arg2)) b j') h' := by
    funext j'
    refine Finset.sum_congr rfl fun h' _ => ?_
    have hq : (fun h'' : Fin 512 => ∑ d : Fin 512, View.ld (xblk m c t) (qrect (grid0.coords t)) (ix3 (0 : Fin 1) r d) * wqblk m c t (ix2 d h''))
        = proj (m ((c : Thread nD τ).loc main_arg0)) (m ((c : Thread nD τ).loc main_arg1)) b r' := by
      funext h''
      unfold proj
      exact Finset.sum_congr rfl fun d _ => by rw [qrows_apply m c t b hb r' r hr d, wqblk_apply m c t d h'']
    have hk : k0_pay3 (F := Ideal) (xblk m c t) (wkblk m c t) (ix2 j' h')
        = lsm (proj (m ((c : Thread nD τ).loc main_arg0)) (m ((c : Thread nD τ).loc main_arg2)) b j') h' := by
      refine (pay3_apply _ _ j' h').trans ?_
      refine congrArg (fun f => lsm f h') (funext fun h'' => ?_)
      unfold proj
      exact Finset.sum_congr rfl fun d _ => by rw [xblk_apply m c t b hb j' d, wkblk_apply m c t d h'']
    rw [hq, hk]
  rw [hs, hv]

/-! ## From tiles to the array -/

/-- The output's index map over the grid: tile (t / 4, t mod 4, 0). -/
theorem idx_out : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

/-- The same at an index of the tile given whole. -/
theorem tile_apply_idx (c : Dev nD) (t : Fin cfg0.N) (y : S1x512x512.Idx) (b : Fin 32) (hb : b.val = t.val / 4) (r' : Fin 2048)
    (hr : r'.val = 512 * (t.val % 4) + (y 1).val) (h : Fin 512) (hh : h.val = (y 2).val) :
    (outsAt0 m c t.val t.isLt).1 y
      = outK (m ((c : Thread nD τ).loc main_arg0)) (m ((c : Thread nD τ).loc main_arg1)) (m ((c : Thread nD τ).loc main_arg2)) (m ((c : Thread nD τ).loc main_arg3)) b r' h := by
  obtain ⟨y0, r, h', rfl⟩ : ∃ (y0 : Fin 1) (r h' : Fin 512), y = ix3 y0 r h' := ⟨y 0, y 1, y 2, eq_ix3 y⟩
  obtain rfl : y0 = 0 := Subsingleton.elim _ _
  obtain rfl : h = h' := Fin.ext hh
  exact tile_apply m c t b hb r' r hr h

/-- What point t writes back is tile t of `G`. -/
theorem flushed_eq (c : Dev nD) (t : Fin cfg0.N) :
    (dats m 0 c).flushed 4 t = ((cfg0.win 4).blk t).view.read (Elt Ideal) (G m c) := by
  have hN : cfg0.N = 128 := N_0
  have htN : t.val < 128 := lt_of_lt_of_eq t.isLt hN
  obtain ⟨e0, e1, e2⟩ := idx_out t
  rw [flushed4]
  funext y
  show (outsAt0 m c t.val t.isLt).1 y = G m c (((cfg0.win 4).blk t).view.emb y)
  have hy1 : (y 1).val < 512 := (y 1).isLt
  have hy2 : (y 2).val < 512 := (y 2).isLt
  have hy0 : (y 0).val < 1 := (y 0).isLt
  have hb : t.val / 4 < 32 := by omega
  have hr' : 512 * (t.val % 4) + (y 1).val < 2048 := by omega
  rw [tile_apply_idx m c t y ⟨t.val / 4, hb⟩ rfl ⟨512 * (t.val % 4) + (y 1).val, hr'⟩ rfl ⟨(y 2).val, hy2⟩ rfl]
  have q0 : (⟨t.val / 4, hb⟩ : Fin 32) = (((cfg0.win 4).blk t).view.emb y) 0 :=
    Fin.ext (by show t.val / 4 = win0_4.index t (0 : Fin 3) * 1 + 1 * (y 0).val; omega)
  have q1 : (⟨512 * (t.val % 4) + (y 1).val, hr'⟩ : Fin 2048) = (((cfg0.win 4).blk t).view.emb y) 1 :=
    Fin.ext (by show 512 * (t.val % 4) + (y 1).val = win0_4.index t (1 : Fin 3) * 512 + 1 * (y 1).val; omega)
  have q2 : (⟨(y 2).val, hy2⟩ : Fin 512) = (((cfg0.win 4).blk t).view.emb y) 2 :=
    Fin.ext (by show (y 2).val = win0_4.index t (2 : Fin 3) * 512 + 1 * (y 2).val; omega)
  unfold G
  exact congr (congr (congrArg (outK _ _ _ _) q0) q1) q2

/-- An index of the array is in tile t iff each coordinate is in the tile's range. -/
theorem mem_blk (t : Fin cfg0.N) (i : S32x2048x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v1).slice (win0_4.rect t)).set ↔ _
  rw [View.set_slice_whole, Rect.mem_set_unit]
  exact Iff.rfl

/-- Every index is in the tile of point 4·b + (row / 512). -/
theorem cover (i : S32x2048x512.Idx) : ∃ t : Fin cfg0.N, (cfg0.win 4).flush t = true ∧ i ∈ ((cfg0.win 4).blk t).view.set := by
  have hN : cfg0.N = 128 := N_0
  have h0 : (i 0).val < 32 := (i 0).isLt
  have h1 : (i 1).val < 2048 := (i 1).isLt
  have h2 : (i 2).val < 512 := (i 2).isLt
  have ht : 4 * (i 0).val + (i 1).val / 512 < cfg0.N := by rw [hN]; omega
  refine ⟨⟨4 * (i 0).val + (i 1).val / 512, ht⟩, flush0_4 _, ?_⟩
  obtain ⟨e0, e1, e2⟩ := idx_out ⟨4 * (i 0).val + (i 1).val / 512, ht⟩
  rw [mem_blk]
  intro a
  match a with
  | ⟨0, _⟩ =>
    show win0_4.index ⟨4 * (i 0).val + (i 1).val / 512, ht⟩ (0 : Fin 3) * 1 ≤ (i 0).val
      ∧ (i 0).val < win0_4.index ⟨4 * (i 0).val + (i 1).val / 512, ht⟩ (0 : Fin 3) * 1 + 1
    dsimp only at e0; omega
  | ⟨1, _⟩ =>
    show win0_4.index ⟨4 * (i 0).val + (i 1).val / 512, ht⟩ (1 : Fin 3) * 512 ≤ (i 1).val
      ∧ (i 1).val < win0_4.index ⟨4 * (i 0).val + (i 1).val / 512, ht⟩ (1 : Fin 3) * 512 + 512
    dsimp only at e1; omega
  | ⟨2, _⟩ =>
    show win0_4.index ⟨4 * (i 0).val + (i 1).val / 512, ht⟩ (2 : Fin 3) * 512 ≤ (i 2).val
      ∧ (i 2).val < win0_4.index ⟨4 * (i 0).val + (i 1).val / 512, ht⟩ (2 : Fin 3) * 512 + 512
    omega

/-- The array after the run is `G`. -/
theorem final (c : Dev nD) : (dats m 0 c).arrAt 4 cfg0.N = G m c :=
  (dats m 0 c).arrAt_eq_of_cover 4 (G m c) (fun t _ => flushed_eq m c t) (cover)

/-- The run, read: the result array at `G`, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.lean ====
/-
  The certificate: a fused KL-attention kernel against its jnp reference, over the extended reals.

  Both programs project x : [32, 2048, 512] by three [512, 512] matrices (q, k, v), score query row i against key
  row j by the cross term Σ_h softmax(q_i)[h] · log_softmax(k_j)[h], take a softmax of the scores over j, and
  average the rows of v with those weights. The reference forms the score as −(Σ_h p log p − cross) with
  p = exp(log_softmax(q_i)); the kernel drops the entropy term, which does not depend on j, and takes softmax(q_i)
  directly. On finite inputs every intermediate value is a real number, exp ∘ log_softmax is softmax, and a softmax is
  unchanged by a shift of its argument, so the two results are equal (Proof/SpecBridge.lean); what each program's
  result array holds, index by index, is read in Proof/KernelValue.lean (over the frame's point-by-point contents)
  and Proof/RefValue.lean (over the reference's stages); the precondition gives finiteness (Proof/Finite.lean).
  The kernel's idealization rewrote no operation, so `preserves` is trivial; the kernels' frames are the generated frame
  runs, the reference's its run (Proof/RefRun.lean) with the result dropped.
-/
import proofs.«419489_j33964601377282_3_alg».proof.Defs
import proofs.«419489_j33964601377282_3_alg».proof.Proof.Gen.Kernel
import proofs.«419489_j33964601377282_3_alg».proof.Proof.Gen.Kernel.Skeleton
import proofs.«419489_j33964601377282_3_alg».proof.Proof.Gen.Kernel.Launch
import proofs.«419489_j33964601377282_3_alg».proof.Proof.Gen.Kernel.Points
import proofs.«419489_j33964601377282_3_alg».proof.Proof.Gen.Kernel.Frame
import proofs.«419489_j33964601377282_3_alg».proof.Proof.Gen.KernelIdeal
import proofs.«419489_j33964601377282_3_alg».proof.Proof.Gen.KernelIdeal.Skeleton
import proofs.«419489_j33964601377282_3_alg».proof.Proof.Gen.KernelIdeal.Launch
import proofs.«419489_j33964601377282_3_alg».proof.Proof.Gen.KernelIdeal.Points
import proofs.«419489_j33964601377282_3_alg».proof.Proof.Gen.KernelIdeal.Frame
import proofs.«419489_j33964601377282_3_alg».proof.Proof.Gen.KernelIdeal.Value
import proofs.«419489_j33964601377282_3_alg».proof.Proof.Gen.ReferenceIdeal
import proofs.«419489_j33964601377282_3_alg».proof.Proof.Gen.Pre_finite_inputs
import proofs.«419489_j33964601377282_3_alg».proof.Proof.RefRunP
import proofs.«419489_j33964601377282_3_alg».proof.Proof.RefReadP
import proofs.«419489_j33964601377282_3_alg».proof.Proof.RefOps
import proofs.«419489_j33964601377282_3_alg».proof.Proof.RefRun
import proofs.«419489_j33964601377282_3_alg».proof.Proof.Spec
import proofs.«419489_j33964601377282_3_alg».proof.Proof.SpecBridge
import proofs.«419489_j33964601377282_3_alg».proof.Proof.Finite
import proofs.«419489_j33964601377282_3_alg».proof.Proof.RefValue
import proofs.«419489_j33964601377282_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- From memories agreeing on the four arguments, the kernel's result array ends at `Spec.outK` of them and the
    reference's at `Spec.outR`; the precondition makes every entry finite, where the two are equal. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2]
  obtain ⟨h0, h1, h2, h3⟩ := Cert.Finite.finite_of_pre _ _ _ _ (hpre c)
  funext i
  obtain ⟨b, r, h, rfl⟩ : ∃ (b : Fin 32) (r : Fin 2048) (h : Fin 512), i = ix3 b r h := ⟨i 0, i 1, i 2, eq_ix3 i⟩
  rw [Cert.ReferenceIdeal.RefValue.ref_apply]
  exact (Cert.Spec.outK_eq_outR _ _ _ _ h0 h1 h2 h3 b r h).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
